-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v83)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8x3 : Shape := ⟨3, ![100000, 8, 3]⟩
abbrev S2000000x1x16 : Shape := ⟨3, ![2000000, 1, 16]⟩
abbrev S1x16x1x1 : Shape := ⟨4, ![1, 16, 1, 1]⟩
abbrev S1 : Shape := ⟨1, ![1]⟩
abbrev S2x2000000 : Shape := ⟨2, ![2, 2000000]⟩
abbrev S_ : Shape := ⟨0, ![]⟩

class Facts : Prop where
  bcast_S_S100000x8x3 : S_.BroadcastsInDim S100000x8x3 (![] : Fin 0 → Fin S100000x8x3.rank)
  reducesTo_S100000x8x3_S_d0_1_2 : S100000x8x3.ReducesTo [0, 1, 2] S_
  h_S_ : 0 < S_.numel
  bcast_S_S2000000x1x16 : S_.BroadcastsInDim S2000000x1x16 (![] : Fin 0 → Fin S2000000x1x16.rank)
  reducesTo_S2000000x1x16_S_d0_1_2 : S2000000x1x16.ReducesTo [0, 1, 2] S_
  bcast_S_S1x16x1x1 : S_.BroadcastsInDim S1x16x1x1 (![] : Fin 0 → Fin S1x16x1x1.rank)
  reducesTo_S1x16x1x1_S_d0_1_2_3 : S1x16x1x1.ReducesTo [0, 1, 2, 3] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S100000x8x3 .f32) (main_arg1 : FVec F S2000000x1x16 .f32) (main_arg2 : FVec F S1x16x1x1 .f32) (main_arg3 : FVec F S1 .f32) (main_arg4 : IVec S2x2000000 32) : IVec S_ 1 :=
  let main_v0 : FVec F S100000x8x3 .f32 := Host.absf main_arg0
  let main_cst : FVec F S_ .f32 := constant S_ .f32 0x7F800000#32
  let main_v1 : FVec F S100000x8x3 .f32 := broadcastInDim S100000x8x3 ![] bcast_S_S100000x8x3 main_cst
  let main_v2 : IVec S100000x8x3 1 := cmpf .olt main_v0 main_v1
  let main_c : IVec S_ 1 := constantI S_ 1 1#1
  let main_v3 : IVec S_ 1 := (fun x v => Host.reduce IntOp.andi x v reducesTo_S100000x8x3_S_d0_1_2 h_S_) main_v2 main_c
  let main_v4 : FVec F S2000000x1x16 .f32 := Host.absf main_arg1
  let main_cst_0 : FVec F S_ .f32 := constant S_ .f32 0x7F800000#32
  let main_v5 : FVec F S2000000x1x16 .f32 := broadcastInDim S2000000x1x16 ![] bcast_S_S2000000x1x16 main_cst_0
  let main_v6 : IVec S2000000x1x16 1 := cmpf .olt main_v4 main_v5
  let main_c_1 : IVec S_ 1 := constantI S_ 1 1#1
  let main_v7 : IVec S_ 1 := (fun x v => Host.reduce IntOp.andi x v reducesTo_S2000000x1x16_S_d0_1_2 h_S_) main_v6 main_c_1
  let main_v8 : IVec S_ 1 := andi main_v3 main_v7
  let main_v9 : FVec F S1x16x1x1 .f32 := Host.absf main_arg2
  let main_cst_2 : FVec F S_ .f32 := constant S_ .f32 0x7F800000#32
  let main_v10 : FVec F S1x16x1x1 .f32 := broadcastInDim S1x16x1x1 ![] bcast_S_S1x16x1x1 main_cst_2
  let main_v11 : IVec S1x16x1x1 1 := cmpf .olt main_v9 main_v10
  let main_c_3 : IVec S_ 1 := constantI S_ 1 1#1
  let main_v12 : IVec S_ 1 := (fun x v => Host.reduce IntOp.andi x v reducesTo_S1x16x1x1_S_d0_1_2_3 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S100000x8x3 : Shape := ⟨3, ![100000, 8, 3]⟩
abbrev S2000000x1x16 : Shape := ⟨3, ![2000000, 1, 16]⟩
abbrev S1x16x1x1 : Shape := ⟨4, ![1, 16, 1, 1]⟩
abbrev S1 : Shape := ⟨1, ![1]⟩
abbrev S2x2000000 : Shape := ⟨2, ![2, 2000000]⟩
abbrev S100000x1x1 : Shape := ⟨3, ![100000, 1, 1]⟩
abbrev S100000 : Shape := ⟨1, ![100000]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x16 : Shape := ⟨2, ![2000000, 16]⟩
abbrev S16 : Shape := ⟨1, ![16]⟩
abbrev S1x16 : Shape := ⟨2, ![1, 16]⟩
abbrev S1x1 : Shape := ⟨2, ![1, 1]⟩
abbrev S16000x16 : Shape := ⟨2, ![16000, 16]⟩
abbrev S1x16000 : Shape := ⟨2, ![1, 16000]⟩
abbrev S16x16000 : Shape := ⟨2, ![16, 16000]⟩
abbrev S2000000x1x1 : Shape := ⟨3, ![2000000, 1, 1]⟩
abbrev S4000000 : Shape := ⟨1, ![4000000]⟩
abbrev S4000000x1 : Shape := ⟨2, ![4000000, 1]⟩
abbrev S100000x1 : Shape := ⟨2, ![100000, 1]⟩

abbrev nBuf : Space → Nat
  | .hbm => 117
  | .vmem => 16
  | .smem => 0
  | _ => 0

abbrev bufTy : (tb : Table) → Fin (tcTables nBuf tb) → BufTy
  | .hbm, ⟨0, _⟩ => ⟨S100000x8x3, .f32⟩
  | .hbm, ⟨1, _⟩ => ⟨S2000000x1x16, .f32⟩
  | .hbm, ⟨2, _⟩ => ⟨S1x16x1x1, .f32⟩
  | .hbm, ⟨3, _⟩ => ⟨S1, .f32⟩
  | .hbm, ⟨4, _⟩ => ⟨S2x2000000, .i32⟩
  | .hbm, ⟨5, _⟩ => ⟨S100000x1x1, .f32⟩
  | .hbm, ⟨6, _⟩ => ⟨S100000, .f32⟩
  | .hbm, ⟨7, _⟩ => ⟨S100000x1x1, .f32⟩
  | .hbm, ⟨8, _⟩ => ⟨S100000, .f32⟩
  | .hbm, ⟨9, _⟩ => ⟨S100000x1x1, .f32⟩
  | .hbm, ⟨10, _⟩ => ⟨S100000, .f32⟩
  | .hbm, ⟨11, _⟩ => ⟨S1x2000000, .i32⟩
  | .hbm, ⟨12, _⟩ => ⟨S2000000, .i32⟩
  | .hbm, ⟨13, _⟩ => ⟨S1x2000000, .i32⟩
  | .hbm, ⟨14, _⟩ => ⟨S2000000, .i32⟩
  | .hbm, ⟨15, _⟩ => ⟨S_, .i32⟩
  | .hbm, ⟨16, _⟩ => ⟨S2000000, .i32⟩
  | .hbm, ⟨17, _⟩ => ⟨S2000000, .i1⟩
  | .hbm, ⟨18, _⟩ => ⟨S_, .i32⟩
  | .hbm, ⟨19, _⟩ => ⟨S2000000, .i32⟩
  | .hbm, ⟨20, _⟩ => ⟨S2000000, .i32⟩
  | .hbm, ⟨21, _⟩ => ⟨S2000000, .i32⟩
  | .hbm, ⟨22, _⟩ => ⟨S2000000x1, .i32⟩
  | .hbm, ⟨23, _⟩ => ⟨S2000000, .f32⟩
  | .hbm, ⟨24, _⟩ => ⟨S_, .i32⟩
  | .hbm, ⟨25, _⟩ => ⟨S2000000, .i32⟩
  | .hbm, ⟨26, _⟩ => ⟨S2000000, .i1⟩
  | .hbm, ⟨27, _⟩ => ⟨S_, .i32⟩
  | .hbm, ⟨28, _⟩ => ⟨S2000000, .i32⟩
  | .hbm, ⟨29, _⟩ => ⟨S2000000, .i32⟩
  | .hbm, ⟨30, _⟩ => ⟨S2000000, .i32⟩
  | .hbm, ⟨31, _⟩ => ⟨S2000000x1, .i32⟩
  | .hbm, ⟨32, _⟩ => ⟨S2000000, .f32⟩
  | .hbm, ⟨33, _⟩ => ⟨S_, .i32⟩
  | .hbm, ⟨34, _⟩ => ⟨S2000000, .i32⟩
  | .hbm, ⟨35, _⟩ => ⟨S2000000, .i1⟩
  | .hbm, ⟨36, _⟩ => ⟨S_, .i32⟩
  | .hbm, ⟨37, _⟩ => ⟨S2000000, .i32⟩
  | .hbm, ⟨38, _⟩ => ⟨S2000000, .i32⟩
  | .hbm, ⟨39, _⟩ => ⟨S2000000, .i32⟩
  | .hbm, ⟨40, _⟩ => ⟨S2000000x1, .i32⟩
  | .hbm, ⟨41, _⟩ => ⟨S2000000, .f32⟩
  | .hbm, ⟨42, _⟩ => ⟨S2000000x16, .f32⟩
  | .hbm, ⟨43, _⟩ => ⟨S16, .f32⟩
  | .hbm, ⟨44, _⟩ => ⟨S1x16, .f32⟩
  | .hbm, ⟨45, _⟩ => ⟨S1x1, .f32⟩
  | .hbm, ⟨46, _⟩ => ⟨S1x2000000, .f32⟩
  | .hbm, ⟨47, _⟩ => ⟨S1x2000000, .f32⟩
  | .hbm, ⟨48, _⟩ => ⟨S1x2000000, .f32⟩
  | .hbm, ⟨49, _⟩ => ⟨S1x2000000, .f32⟩
  | .hbm, ⟨50, _⟩ => ⟨S1x2000000, .f32⟩
  | .hbm, ⟨51, _⟩ => ⟨S1x2000000, .f32⟩
  | .hbm, ⟨52, _⟩ => ⟨S2000000x1x1, .f32⟩
  | .hbm, ⟨53, _⟩ => ⟨S2000000, .f32⟩
  | .hbm, ⟨54, _⟩ => ⟨S2000000, .f32⟩
  | .hbm, ⟨55, _⟩ => ⟨S2000000, .i1⟩
  | .hbm, ⟨56, _⟩ => ⟨S2000000, .i32⟩
  | .hbm, ⟨57, _⟩ => ⟨S4000000, .i32⟩
  | .hbm, ⟨58, _⟩ => ⟨S4000000, .f32⟩
  | .hbm, ⟨59, _⟩ => ⟨S_, .i32⟩
  | .hbm, ⟨60, _⟩ => ⟨S2000000, .i32⟩
  | .hbm, ⟨61, _⟩ => ⟨S2000000, .i32⟩
  | .hbm, ⟨62, _⟩ => ⟨S_, .i32⟩
  | .hbm, ⟨63, _⟩ => ⟨S_, .i32⟩
  | .hbm, ⟨64, _⟩ => ⟨S2000000, .i32⟩
  | .hbm, ⟨65, _⟩ => ⟨S2000000, .i32⟩
  | .hbm, ⟨66, _⟩ => ⟨S_, .i32⟩
  | .hbm, ⟨67, _⟩ => ⟨S2000000, .i32⟩
  | .hbm, ⟨68, _⟩ => ⟨S2000000, .i32⟩
  | .hbm, ⟨69, _⟩ => ⟨S_, .i32⟩
  | .hbm, ⟨70, _⟩ => ⟨S2000000, .i32⟩
  | .hbm, ⟨71, _⟩ => ⟨S2000000, .i32⟩
  | .hbm, ⟨72, _⟩ => ⟨S_, .i32⟩
  | .hbm, ⟨73, _⟩ => ⟨S_, .i32⟩
  | .hbm, ⟨74, _⟩ => ⟨S2000000, .i32⟩
  | .hbm, ⟨75, _⟩ => ⟨S2000000, .i32⟩
  | .hbm, ⟨76, _⟩ => ⟨S4000000, .i32⟩
  | .hbm, ⟨77, _⟩ => ⟨S_, .i32⟩
  | .hbm, ⟨78, _⟩ => ⟨S100000, .i32⟩
  | .hbm, ⟨79, _⟩ => ⟨S4000000x1, .i32⟩
  | .hbm, ⟨80, _⟩ => ⟨S100000, .i32⟩
  | .hbm, ⟨81, _⟩ => ⟨S_, .i32⟩
  | .hbm, ⟨82, _⟩ => ⟨S4000000, .i32⟩
  | .hbm, ⟨83, _⟩ => ⟨S4000000, .i1⟩
  | .hbm, ⟨84, _⟩ => ⟨S_, .i32⟩
  | .hbm, ⟨85, _⟩ => ⟨S4000000, .i32⟩
  | .hbm, ⟨86, _⟩ => ⟨S4000000, .i1⟩
  | .hbm, ⟨87, _⟩ => ⟨S_, .i32⟩
  | .hbm, ⟨88, _⟩ => ⟨S4000000, .i32⟩
  | .hbm, ⟨89, _⟩ => ⟨S4000000, .i32⟩
  | .hbm, ⟨90, _⟩ => ⟨S4000000, .i32⟩
  | .hbm, ⟨91, _⟩ => ⟨S4000000x1, .i32⟩
  | .hbm, ⟨92, _⟩ => ⟨S4000000, .i32⟩
  | .hbm, ⟨93, _⟩ => ⟨S4000000, .i1⟩
  | .hbm, ⟨94, _⟩ => ⟨S4000000, .i1⟩
  | .hbm, ⟨95, _⟩ => ⟨S_, .f32⟩
  | .hbm, ⟨96, _⟩ => ⟨S100000, .f32⟩
  | .hbm, ⟨97, _⟩ => ⟨S_, .f32⟩
  | .hbm, ⟨98, _⟩ => ⟨S_, .f32⟩
  | .hbm, ⟨99, _⟩ => ⟨S4000000, .f32⟩
  | .hbm, ⟨100, _⟩ => ⟨S4000000, .f32⟩
  | .hbm, ⟨101, _⟩ => ⟨S_, .i32⟩
  | .hbm, ⟨102, _⟩ => ⟨S4000000, .i32⟩
  | .hbm, ⟨103, _⟩ => ⟨S4000000, .i1⟩
  | .hbm, ⟨104, _⟩ => ⟨S_, .i32⟩
  | .hbm, ⟨105, _⟩ => ⟨S4000000, .i32⟩
  | .hbm, ⟨106, _⟩ => ⟨S4000000, .i32⟩
  | .hbm, ⟨107, _⟩ => ⟨S4000000, .i32⟩
  | .hbm, ⟨108, _⟩ => ⟨S4000000x1, .i32⟩
  | .hbm, ⟨109, _⟩ => ⟨S100000, .f32⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000, .f32⟩
  | .hbm, ⟨114, _⟩ => ⟨S100000, .f32⟩
  | .hbm, ⟨115, _⟩ => ⟨S100000, .f32⟩
  | .hbm, ⟨116, _⟩ => ⟨S100000x1, .f32⟩
  | .local _ .vmem, ⟨0, _⟩ => ⟨S16000x16, .f32⟩
  | .local _ .vmem, ⟨1, _⟩ => ⟨S16000x16, .f32⟩
  | .local _ .vmem, ⟨2, _⟩ => ⟨S1x16, .f32⟩
  | .local _ .vmem, ⟨3, _⟩ => ⟨S1x1, .f32⟩
  | .local _ .vmem, ⟨4, _⟩ => ⟨S1x16000, .f32⟩
  | .local _ .vmem, ⟨5, _⟩ => ⟨S1x16000, .f32⟩
  | .local _ .vmem, ⟨6, _⟩ => ⟨S1x16000, .f32⟩
  | .local _ .vmem, ⟨7, _⟩ => ⟨S1x16000, .f32⟩
  | .local _ .vmem, ⟨8, _⟩ => ⟨S1x16000, .f32⟩
  | .local _ .vmem, ⟨9, _⟩ => ⟨S1x16000, .f32⟩
  | .local _ .vmem, ⟨10, _⟩ => ⟨S1x16000, .f32⟩
  | .local _ .vmem, ⟨11, _⟩ => ⟨S1x16000, .f32⟩
  | .local _ .vmem, ⟨12, _⟩ => ⟨S1x16000, .f32⟩
  | .local _ .vmem, ⟨13, _⟩ => ⟨S1x16000, .f32⟩
  | .local _ .vmem, ⟨14, _⟩ => ⟨S1x16000, .f32⟩
  | .local _ .vmem, ⟨15, _⟩ => ⟨S1x16000, .f32⟩
  | _, _ => ⟨S100000x8x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38_0 : Ref sig .tc := ⟨.hbm, 49, rfl⟩
abbrev main_v38_1 : Ref sig .tc := ⟨.hbm, 50, rfl⟩
abbrev main_v38_2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_c_6 : Ref sig .tc := ⟨.hbm, 62, rfl⟩
abbrev main_call0_v0 : Ref sig .tc := ⟨.hbm, 63, rfl⟩
abbrev main_call0_v1 : Ref sig .tc := ⟨.hbm, 64, rfl⟩
abbrev main_v48 : Ref sig .tc := ⟨.hbm, 65, rfl⟩
abbrev main_c_7 : Ref sig .tc := ⟨.hbm, 66, rfl⟩
abbrev main_v49 : Ref sig .tc := ⟨.hbm, 67, rfl⟩
abbrev main_v50 : Ref sig .tc := ⟨.hbm, 68, rfl⟩
abbrev main_c_8 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_call1_v0 : Ref sig .tc := ⟨.hbm, 73, rfl⟩
abbrev main_call1_v1 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_11 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst : Ref sig .tc := ⟨.hbm, 95, rfl⟩
abbrev main_v69 : Ref sig .tc := ⟨.hbm, 96, rfl⟩
abbrev main_cst_14 : Ref sig .tc := ⟨.hbm, 97, rfl⟩
abbrev main_call2_v0 : Ref sig .tc := ⟨.hbm, 98, rfl⟩
abbrev main_call2_v1 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_17 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S100000x8x3_S100000x1x1_0_7_0 : S100000x8x3.Slices ![0, 7, 0] S100000x1x1
  shapeCasts_S100000x1x1_S100000 : S100000x1x1.ShapeCasts S100000
  slices_S100000x8x3_S100000x1x1_0_7_1 : S100000x8x3.Slices ![0, 7, 1] S100000x1x1
  slices_S100000x8x3_S100000x1x1_0_7_2 : S100000x8x3.Slices ![0, 7, 2] S100000x1x1
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S2000000x1x16_S2000000x16 : S2000000x1x16.ShapeCasts S2000000x16
  shapeCasts_S1x16x1x1_S16 : S1x16x1x1.ShapeCasts S16
  shapeCasts_S16_S1x16 : S16.ShapeCasts S1x16
  shapeCasts_S1_S1x1 : S1.ShapeCasts S1x1
  shapeCasts_S2000000_S1x2000000 : S2000000.ShapeCasts S1x2000000
  inb_S16000x16_S16000x16_0_0 : ∀ a, (![0, 0] : Fin 2 → Nat) a + S16000x16.size a ≤ S16000x16.size a
  h_S16000x16 : 0 < S16000x16.numel
  shapeCasts_S16000x16_S16000x16 : S16000x16.ShapeCasts S16000x16
  bitsLt_bf16_f32 : FTy.bits .bf16 < FTy.bits .f32
  transposes_S16000x16_p1_0_S16x16000 : S16000x16.Transposes [1, 0] S16x16000
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  shapeCasts_S1x2000000_S2000000x1x1 : S1x2000000.ShapeCasts S2000000x1x1
  concatenates_S2000000_S2000000_S4000000_d0 : Shape.Concatenates [S2000000, S2000000] S4000000 0
  bcast_S_S100000 : S_.BroadcastsInDim S100000 (![] : Fin 0 → Fin S100000.rank)
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S100000_S100000x1_0 : S100000.BroadcastsInDim S100000x1 (![0] : Fin 1 → Fin S100000x1.rank)
  gather_S100000_S2000000x1_S2000000_n_0_n_n_0_1_1_wf : GatherDims.WF S100000 S2000000x1 S2000000 [] [0] [] [0] [] 1 ![1]
  dot_S1x16_S16x16000_S1x16000_1_0_0_1_n_n_wf : DotDims.WF S1x16 S16x16000 S1x16000 [1] [0] [0] [1] [] []
  scatter_S100000_S4000000x1_S4000000_n_0_0_1_wf : ScatterDims.WF S100000 S4000000x1 S4000000 [] [0] [0] 1
  gather_S100000_S4000000x1_S4000000_n_0_n_n_0_1_1_wf : GatherDims.WF S100000 S4000000x1 S4000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x16.size a ≤ S2000000x16.size a
  hwx0_0 : ∀ i : grid0.Coords, EltTy.bits .f32 = 32 ∨ (Rect.block (s := S2000000x16) S16000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16000.size a ≤ S1x2000000.size a
  hwx0_3 : ∀ i : grid0.Coords, EltTy.bits .f32 = 32 ∨ (Rect.block (s := S1x2000000) S1x16000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16000.size a ≤ S1x2000000.size a
  hwx0_4 : ∀ i : grid0.Coords, EltTy.bits .f32 = 32 ∨ (Rect.block (s := S1x2000000) S1x16000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16000.size a ≤ S1x2000000.size a
  hwx0_5 : ∀ i : grid0.Coords, EltTy.bits .f32 = 32 ∨ (Rect.block (s := S1x2000000) S1x16000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16000.size a ≤ S1x2000000.size a
  hwx0_6 : ∀ i : grid0.Coords, EltTy.bits .f32 = 32 ∨ (Rect.block (s := S1x2000000) S1x16000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16000.size a ≤ S1x2000000.size a
  hwx0_7 : ∀ i : grid0.Coords, EltTy.bits .f32 = 32 ∨ (Rect.block (s := S1x2000000) S1x16000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16000.size a ≤ S1x2000000.size a
  hwx0_8 : ∀ i : grid0.Coords, EltTy.bits .f32 = 32 ∨ (Rect.block (s := S1x2000000) S1x16000.size (cc0_transform_8 i) (hinb0_8 i)).WholeWords (EltTy.packing .f32)

variable [Facts₀]

def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def dot_S1x16_S16x16000_S1x16000_1_0_0_1_n_n : DotDims S1x16 S16x16000 S1x16000 where
  lhsContracting := [1]
  rhsContracting := [0]
  lhsNonContracting := [0]
  rhsNonContracting := [1]
  lhsBatch := []
  rhsBatch := []
  wf := dot_S1x16_S16x16000_S1x16000_1_0_0_1_n_n_wf
def scatter_S100000_S4000000x1_S4000000_n_0_0_1 : ScatterDims S100000 S4000000x1 S4000000 where
  updateWindowDims := []
  insertedWindowDims := [0]
  scatterDimsToOperandDims := [0]
  indexVectorDim := 1
  wf := scatter_S100000_S4000000x1_S4000000_n_0_0_1_wf
def gather_S100000_S4000000x1_S4000000_n_0_n_n_0_1_1 : GatherDims S100000 S4000000x1 S4000000 where
  offsetDims := []
  collapsedSliceDims := [0]
  operandBatchingDims := []
  startIndicesBatchingDims := []
  startIndexMap := [0]
  indexVectorDim := 1
  sliceSizes := ![1]
  wf := gather_S100000_S4000000x1_S4000000_n_0_n_n_0_1_1_wf

abbrev win0_0 : Pipeline.Window sig grid0 :=
  Pipeline.Window.ofSpec (Memref.whole main_v31) S16000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1x16000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x16000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v37) S1x16000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v38_0) S1x16000.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v38_1) S1x16000.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v38_2) S1x16000.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x8x3 : Shape := ⟨3, ![100000, 8, 3]⟩
abbrev S2000000x1x16 : Shape := ⟨3, ![2000000, 1, 16]⟩
abbrev S1x16x1x1 : Shape := ⟨4, ![1, 16, 1, 1]⟩
abbrev S1 : Shape := ⟨1, ![1]⟩
abbrev S2x2000000 : Shape := ⟨2, ![2, 2000000]⟩
abbrev S100000x1x1 : Shape := ⟨3, ![100000, 1, 1]⟩
abbrev S100000 : Shape := ⟨1, ![100000]⟩
abbrev S1x16 : Shape := ⟨2, ![1, 16]⟩
abbrev S2000000x1x1 : Shape := ⟨3, ![2000000, 1, 1]⟩
abbrev S1x1x1 : Shape := ⟨3, ![1, 1, 1]⟩
abbrev S2000000 : Shape := ⟨1, ![2000000]⟩
abbrev S1x2000000 : Shape := ⟨2, ![1, 2000000]⟩
abbrev S_ : Shape := ⟨0, ![]⟩
abbrev S2000000x1 : Shape := ⟨2, ![2000000, 1]⟩
abbrev S4000000 : Shape := ⟨1, ![4000000]⟩
abbrev S4000000x1 : Shape := ⟨2, ![4000000, 1]⟩
abbrev S100000x1 : Shape := ⟨2, ![100000, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x8x3, .f32⟩
  | .hbm, ⟨1, _⟩ => ⟨S2000000x1x16, .f32⟩
  | .hbm, ⟨2, _⟩ => ⟨S1x16x1x1, .f32⟩
  | .hbm, ⟨3, _⟩ => ⟨S1, .f32⟩
  | .hbm, ⟨4, _⟩ => ⟨S2x2000000, .i32⟩
  | .hbm, ⟨5, _⟩ => ⟨S100000x1x1, .f32⟩
  | .hbm, ⟨6, _⟩ => ⟨S100000, .f32⟩
  | .hbm, ⟨7, _⟩ => ⟨S100000x1x1, .f32⟩
  | .hbm, ⟨8, _⟩ => ⟨S100000, .f32⟩
  | .hbm, ⟨9, _⟩ => ⟨S100000x1x1, .f32⟩
  | .hbm, ⟨10, _⟩ => ⟨S100000, .f32⟩
  | .hbm, ⟨11, _⟩ => ⟨S1x16, .f32⟩
  | .hbm, ⟨12, _⟩ => ⟨S2000000x1x1, .f32⟩
  | .hbm, ⟨13, _⟩ => ⟨S1x1x1, .f32⟩
  | .hbm, ⟨14, _⟩ => ⟨S2000000x1x1, .f32⟩
  | .hbm, ⟨15, _⟩ => ⟨S2000000x1x1, .f32⟩
  | .hbm, ⟨16, _⟩ => ⟨S2000000, .f32⟩
  | .hbm, ⟨17, _⟩ => ⟨S1x2000000, .i32⟩
  | .hbm, ⟨18, _⟩ => ⟨S2000000, .i32⟩
  | .hbm, ⟨19, _⟩ => ⟨S1x2000000, .i32⟩
  | .hbm, ⟨20, _⟩ => ⟨S2000000, .i32⟩
  | .hbm, ⟨21, _⟩ => ⟨S2000000, .i1⟩
  | .hbm, ⟨22, _⟩ => ⟨S_, .i32⟩
  | .hbm, ⟨23, _⟩ => ⟨S2000000, .i32⟩
  | .hbm, ⟨24, _⟩ => ⟨S2000000, .i1⟩
  | .hbm, ⟨25, _⟩ => ⟨S_, .i32⟩
  | .hbm, ⟨26, _⟩ => ⟨S2000000, .i32⟩
  | .hbm, ⟨27, _⟩ => ⟨S2000000, .i32⟩
  | .hbm, ⟨28, _⟩ => ⟨S2000000, .i32⟩
  | .hbm, ⟨29, _⟩ => ⟨S2000000x1, .i32⟩
  | .hbm, ⟨30, _⟩ => ⟨S2000000, .f32⟩
  | .hbm, ⟨31, _⟩ => ⟨S2000000, .f32⟩
  | .hbm, ⟨32, _⟩ => ⟨S_, .i32⟩
  | .hbm, ⟨33, _⟩ => ⟨S2000000, .i32⟩
  | .hbm, ⟨34, _⟩ => ⟨S2000000, .i1⟩
  | .hbm, ⟨35, _⟩ => ⟨S_, .i32⟩
  | .hbm, ⟨36, _⟩ => ⟨S2000000, .i32⟩
  | .hbm, ⟨37, _⟩ => ⟨S2000000, .i32⟩
  | .hbm, ⟨38, _⟩ => ⟨S2000000, .i32⟩
  | .hbm, ⟨39, _⟩ => ⟨S2000000x1, .i32⟩
  | .hbm, ⟨40, _⟩ => ⟨S2000000, .f32⟩
  | .hbm, ⟨41, _⟩ => ⟨S2000000, .f32⟩
  | .hbm, ⟨42, _⟩ => ⟨S_, .i32⟩
  | .hbm, ⟨43, _⟩ => ⟨S2000000, .i32⟩
  | .hbm, ⟨44, _⟩ => ⟨S2000000, .i1⟩
  | .hbm, ⟨45, _⟩ => ⟨S_, .i32⟩
  | .hbm, ⟨46, _⟩ => ⟨S2000000, .i32⟩
  | .hbm, ⟨47, _⟩ => ⟨S2000000, .i32⟩
  | .hbm, ⟨48, _⟩ => ⟨S2000000, .i32⟩
  | .hbm, ⟨49, _⟩ => ⟨S2000000x1, .i32⟩
  | .hbm, ⟨50, _⟩ => ⟨S2000000, .f32⟩
  | .hbm, ⟨51, _⟩ => ⟨S2000000, .f32⟩
  | .hbm, ⟨52, _⟩ => ⟨S_, .i32⟩
  | .hbm, ⟨53, _⟩ => ⟨S2000000, .i32⟩
  | .hbm, ⟨54, _⟩ => ⟨S2000000, .i1⟩
  | .hbm, ⟨55, _⟩ => ⟨S_, .i32⟩
  | .hbm, ⟨56, _⟩ => ⟨S2000000, .i32⟩
  | .hbm, ⟨57, _⟩ => ⟨S2000000, .i32⟩
  | .hbm, ⟨58, _⟩ => ⟨S2000000, .i32⟩
  | .hbm, ⟨59, _⟩ => ⟨S2000000x1, .i32⟩
  | .hbm, ⟨60, _⟩ => ⟨S2000000, .f32⟩
  | .hbm, ⟨61, _⟩ => ⟨S2000000, .f32⟩
  | .hbm, ⟨62, _⟩ => ⟨S2000000, .i32⟩
  | .hbm, ⟨63, _⟩ => ⟨S4000000, .i32⟩
  | .hbm, ⟨64, _⟩ => ⟨S4000000, .f32⟩
  | .hbm, ⟨65, _⟩ => ⟨S_, .i32⟩
  | .hbm, ⟨66, _⟩ => ⟨S2000000, .i32⟩
  | .hbm, ⟨67, _⟩ => ⟨S2000000, .i32⟩
  | .hbm, ⟨68, _⟩ => ⟨S_, .i32⟩
  | .hbm, ⟨69, _⟩ => ⟨S_, .i32⟩
  | .hbm, ⟨70, _⟩ => ⟨S2000000, .i32⟩
  | .hbm, ⟨71, _⟩ => ⟨S2000000, .i32⟩
  | .hbm, ⟨72, _⟩ => ⟨S_, .i32⟩
  | .hbm, ⟨73, _⟩ => ⟨S2000000, .i32⟩
  | .hbm, ⟨74, _⟩ => ⟨S2000000, .i32⟩
  | .hbm, ⟨75, _⟩ => ⟨S_, .i32⟩
  | .hbm, ⟨76, _⟩ => ⟨S2000000, .i32⟩
  | .hbm, ⟨77, _⟩ => ⟨S2000000, .i32⟩
  | .hbm, ⟨78, _⟩ => ⟨S_, .i32⟩
  | .hbm, ⟨79, _⟩ => ⟨S_, .i32⟩
  | .hbm, ⟨80, _⟩ => ⟨S2000000, .i32⟩
  | .hbm, ⟨81, _⟩ => ⟨S2000000, .i32⟩
  | .hbm, ⟨82, _⟩ => ⟨S4000000, .i32⟩
  | .hbm, ⟨83, _⟩ => ⟨S_, .i32⟩
  | .hbm, ⟨84, _⟩ => ⟨S100000, .i32⟩
  | .hbm, ⟨85, _⟩ => ⟨S4000000x1, .i32⟩
  | .hbm, ⟨86, _⟩ => ⟨S100000, .i32⟩
  | .hbm, ⟨87, _⟩ => ⟨S_, .i32⟩
  | .hbm, ⟨88, _⟩ => ⟨S4000000, .i32⟩
  | .hbm, ⟨89, _⟩ => ⟨S4000000, .i1⟩
  | .hbm, ⟨90, _⟩ => ⟨S_, .i32⟩
  | .hbm, ⟨91, _⟩ => ⟨S4000000, .i32⟩
  | .hbm, ⟨92, _⟩ => ⟨S4000000, .i1⟩
  | .hbm, ⟨93, _⟩ => ⟨S_, .i32⟩
  | .hbm, ⟨94, _⟩ => ⟨S4000000, .i32⟩
  | .hbm, ⟨95, _⟩ => ⟨S4000000, .i32⟩
  | .hbm, ⟨96, _⟩ => ⟨S4000000, .i32⟩
  | .hbm, ⟨97, _⟩ => ⟨S4000000x1, .i32⟩
  | .hbm, ⟨98, _⟩ => ⟨S4000000, .i32⟩
  | .hbm, ⟨99, _⟩ => ⟨S4000000, .i1⟩
  | .hbm, ⟨100, _⟩ => ⟨S4000000, .i1⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S_, .f32⟩
  | .hbm, ⟨105, _⟩ => ⟨S4000000, .f32⟩
  | .hbm, ⟨106, _⟩ => ⟨S4000000, .f32⟩
  | .hbm, ⟨107, _⟩ => ⟨S_, .i32⟩
  | .hbm, ⟨108, _⟩ => ⟨S4000000, .i32⟩
  | .hbm, ⟨109, _⟩ => ⟨S4000000, .i1⟩
  | .hbm, ⟨110, _⟩ => ⟨S_, .i32⟩
  | .hbm, ⟨111, _⟩ => ⟨S4000000, .i32⟩
  | .hbm, ⟨112, _⟩ => ⟨S4000000, .i32⟩
  | .hbm, ⟨113, _⟩ => ⟨S4000000, .i32⟩
  | .hbm, ⟨114, _⟩ => ⟨S4000000x1, .i32⟩
  | .hbm, ⟨115, _⟩ => ⟨S100000, .f32⟩
  | .hbm, ⟨116, _⟩ => ⟨S_, .f32⟩
  | .hbm, ⟨117, _⟩ => ⟨S100000, .f32⟩
  | .hbm, ⟨118, _⟩ => ⟨S100000, .f32⟩
  | .hbm, ⟨119, _⟩ => ⟨S100000, .f32⟩
  | .hbm, ⟨120, _⟩ => ⟨S100000, .f32⟩
  | .hbm, ⟨121, _⟩ => ⟨S100000, .f32⟩
  | .hbm, ⟨122, _⟩ => ⟨S100000x1, .f32⟩
  | _, _ => ⟨S100000x8x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_1 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_3 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_c_7 : Ref sig .tc := ⟨.hbm, 65, rfl⟩
abbrev main_v52 : Ref sig .tc := ⟨.hbm, 66, rfl⟩
abbrev main_v53 : Ref sig .tc := ⟨.hbm, 67, rfl⟩
abbrev main_c_8 : Ref sig .tc := ⟨.hbm, 68, rfl⟩
abbrev main_call0_v0 : Ref sig .tc := ⟨.hbm, 69, rfl⟩
abbrev main_call0_v1 : Ref sig .tc := ⟨.hbm, 70, rfl⟩
abbrev main_v54 : Ref sig .tc := ⟨.hbm, 71, rfl⟩
abbrev main_c_9 : Ref sig .tc := ⟨.hbm, 72, rfl⟩
abbrev main_v55 : Ref sig .tc := ⟨.hbm, 73, rfl⟩
abbrev main_v56 : Ref sig .tc := ⟨.hbm, 74, rfl⟩
abbrev main_c_10 : Ref sig .tc := ⟨.hbm, 75, rfl⟩
abbrev main_v57 : Ref sig .tc := ⟨.hbm, 76, rfl⟩
abbrev main_v58 : Ref sig .tc := ⟨.hbm, 77, rfl⟩
abbrev main_c_11 : Ref sig .tc := ⟨.hbm, 78, rfl⟩
abbrev main_call1_v0 : Ref sig .tc := ⟨.hbm, 79, rfl⟩
abbrev main_call1_v1 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst : Ref sig .tc := ⟨.hbm, 101, rfl⟩
abbrev main_v75 : Ref sig .tc := ⟨.hbm, 102, rfl⟩
abbrev main_cst_16 : Ref sig .tc := ⟨.hbm, 103, rfl⟩
abbrev main_call2_v0 : Ref sig .tc := ⟨.hbm, 104, rfl⟩
abbrev main_call2_v1 : Ref sig .tc := ⟨.hbm, 105, rfl⟩
abbrev main_v76 : Ref sig .tc := ⟨.hbm, 106, rfl⟩
abbrev main_c_17 : Ref sig .tc := ⟨.hbm, 107, rfl⟩
abbrev main_v77 : Ref sig .tc := ⟨.hbm, 108, rfl⟩
abbrev main_v78 : Ref sig .tc := ⟨.hbm, 109, rfl⟩
abbrev main_c_18 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_19 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩

abbrev nD : Nat := 1
abbrev τ : Topo := Topo.v7x

variable {F : FTy → Type} [FloatOps F]

class Facts₀ : Prop where
  slices_S100000x8x3_S100000x1x1_0_7_0 : S100000x8x3.Slices ![0, 7, 0] S100000x1x1
  shapeCasts_S100000x1x1_S100000 : S100000x1x1.ShapeCasts S100000
  slices_S100000x8x3_S100000x1x1_0_7_1 : S100000x8x3.Slices ![0, 7, 1] S100000x1x1
  slices_S100000x8x3_S100000x1x1_0_7_2 : S100000x8x3.Slices ![0, 7, 2] S100000x1x1
  shapeCasts_S1x16x1x1_S1x16 : S1x16x1x1.ShapeCasts S1x16
  bcast_S1_S1x1x1_2 : S1.BroadcastsInDim S1x1x1 (![2] : Fin 1 → Fin S1x1x1.rank)
  bcast_S1x1x1_S2000000x1x1_0_1_2 : S1x1x1.BroadcastsInDim S2000000x1x1 (![0, 1, 2] : Fin 3 → Fin S2000000x1x1.rank)
  shapeCasts_S2000000x1x1_S2000000 : S2000000x1x1.ShapeCasts S2000000
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000_S2000000_S4000000_d0 : Shape.Concatenates [S2000000, S2000000] S4000000 0
  bcast_S_S100000 : S_.BroadcastsInDim S100000 (![] : Fin 0 → Fin S100000.rank)
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S100000_S100000x1_0 : S100000.BroadcastsInDim S100000x1 (![0] : Fin 1 → Fin S100000x1.rank)
  dot_S2000000x1x16_S1x16_S2000000x1x1_2_1_01_0_n_n_wf : DotDims.WF S2000000x1x16 S1x16 S2000000x1x1 [2] [1] [0, 1] [0] [] []
  gather_S100000_S2000000x1_S2000000_n_0_n_n_0_1_1_wf : GatherDims.WF S100000 S2000000x1 S2000000 [] [0] [] [0] [] 1 ![1]
  scatter_S100000_S4000000x1_S4000000_n_0_0_1_wf : ScatterDims.WF S100000 S4000000x1 S4000000 [] [0] [0] 1
  gather_S100000_S4000000x1_S4000000_n_0_n_n_0_1_1_wf : GatherDims.WF S100000 S4000000x1 S4000000 [] [0] [] [0] [] 1 ![1]

variable [Facts₀]

def dot_S2000000x1x16_S1x16_S2000000x1x1_2_1_01_0_n_n : DotDims S2000000x1x16 S1x16 S2000000x1x1 where
  lhsContracting := [2]
  rhsContracting := [1]
  lhsNonContracting := [0, 1]
  rhsNonContracting := [0]
  lhsBatch := []
  rhsBatch := []
  wf := dot_S2000000x1x16_S1x16_S2000000x1x1_2_1_01_0_n_n_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def scatter_S100000_S4000000x1_S4000000_n_0_0_1 : ScatterDims S100000 S4000000x1 S4000000 where
  updateWindowDims := []
  insertedWindowDims := [0]
  scatterDimsToOperandDims := [0]
  indexVectorDim := 1
  wf := scatter_S100000_S4000000x1_S4000000_n_0_0_1_wf
def gather_S100000_S4000000x1_S4000000_n_0_n_n_0_1_1 : GatherDims S100000 S4000000x1 S4000000 where
  offsetDims := []
  collapsedSliceDims := [0]
  operandBatchingDims := []
  startIndicesBatchingDims := []
  startIndexMap := [0]
  indexVectorDim := 1
  sliceSizes := ![1]
  wf := gather_S100000_S4000000x1_S4000000_n_0_n_n_0_1_1_wf

class Facts : Prop extends Facts₀ where

variable [Facts]
-- ==== Proof.BFrameA.lean ====
/-
  The frame of the kernel program as printed, at any float instance: @main is host operations, one pipelined region over
  125 grid points, and host operations again. At each point the body reads a block of 16000 edges' features, the
  weight row and the bias, and three rows of per-edge scalars, and stores three rows of 16000 values: the affine
  map of the features, and that value times one scalar divided by each of two others. Nothing it stores depends
  on what the output buffers held. The host operations after the region write only their own result buffers, so
  the region's arrays and @main's arguments end as the region left them.
-/
import proofs.«132385_j48275432407577_1_alg».proof.Proof.Gen.Kernel.Launch
import proofs.«132385_j48275432407577_1_alg».proof.Proof.Gen.Kernel.Skeleton
import proofs.«132385_j48275432407577_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: after the host operations that precede it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) :=
  [hostOps1, hostOps1_1, hostOps1_2, hostOps1_3, hostOps1_4, hostOps1_5, hostOps1_6]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main reduces to the region continued by the later host operations, entered at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later host operations touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- No operation of this stretch writes an array the region stages: each writes its own result buffer. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
  repeat' apply And.intro
  all_goals intro w; fin_cases w <;> exact StableHlo.devRef_ne_of_ne (by decide)
/-- No operation of this stretch writes an array the region stages: each writes its own result buffer. -/
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
  repeat' apply And.intro
  all_goals intro w; fin_cases w <;> exact StableHlo.devRef_ne_of_ne (by decide)
/-- No operation of this stretch writes an array the region stages: each writes its own result buffer. -/
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
  repeat' apply And.intro
  all_goals intro w; fin_cases w <;> exact StableHlo.devRef_ne_of_ne (by decide)
/-- No operation of this stretch writes an array the region stages: each writes its own result buffer. -/
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
  repeat' apply And.intro
  all_goals intro w; fin_cases w <;> exact StableHlo.devRef_ne_of_ne (by decide)
/-- No operation of this stretch writes an array the region stages: each writes its own result buffer. -/
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
  repeat' apply And.intro
  all_goals intro w; fin_cases w <;> exact StableHlo.devRef_ne_of_ne (by decide)
/-- No operation of this stretch writes an array the region stages: each writes its own result buffer. -/
theorem hostOps1_5_keeps : (hostOps1_5 : List (HloOp τ sig (Elt F))).Forall fun op =>
    ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
  repeat' apply And.intro
  all_goals intro w; fin_cases w <;> exact StableHlo.devRef_ne_of_ne (by decide)
/-- No operation of this stretch writes an array the region stages: each writes its own result buffer. -/
theorem hostOps1_6_keeps : (hostOps1_6 : List (HloOp τ sig (Elt F))).Forall fun op =>
    ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
  repeat' apply And.intro
  all_goals intro w; fin_cases w <;> exact StableHlo.devRef_ne_of_ne (by decide)

/-- The later host operations write no array the region stages. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

end Cert.Kernel.Hand

end
-- ==== Proof.BFrameB.lean ====
/-
  The kernel program as printed's run, at any float instance. The body's three stores each cover a whole output
  block, so after the body an output's staging buffer holds one payload of the six input blocks; an input's
  staging buffer holds its array's block at every grid point, whether the pipeline fetched it there or kept it
  from the first point (the weight row and the bias). With this proof data the region runs, the host operations
  after it run from its exit, and every buffer no operation writes ends as @main found it.
-/
import proofs.«132385_j48275432407577_1_alg».proof.Proof.BFrameA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output window's buffer -/

abbrev rX : Rect S16000x16 := Rect.unit (s := S16000x16) ![0, 0] S16000x16.size inb_S16000x16_S16000x16_0_0
abbrev rW : Rect S1x16 := Rect.unit (s := S1x16) ![0, 0] S1x16.size inb_S1x16_S1x16_0_0
abbrev rB : Rect S1x1 := Rect.unit (s := S1x1) ![0, 0] S1x1.size inb_S1x1_S1x1_0_0
abbrev rE : Rect S1x16000 := Rect.unit (s := S1x16000) ![0, 0] S1x16000.size inb_S1x16000_S1x16000_0_0

/-- The first output block: the affine map of the feature block by the weight row and the bias. -/
def out0_6 (x0 : Vec F S16000x16 .f32) (x1 : Vec F S1x16 .f32) (x2 : Vec F S1x1 .f32) : Vec F S1x16000 .f32 :=
  View.canon [⟨rE, k0_pay1 (View.ld x0 rX) (View.ld x1 rW) (View.ld x2 rB)⟩]
/-- The second: that value times the first scalar row, divided by the second. -/
def out0_7 (x0 : Vec F S16000x16 .f32) (x1 : Vec F S1x16 .f32) (x2 : Vec F S1x1 .f32) (x3 : Vec F S1x16000 .f32) (x4 : Vec F S1x16000 .f32) : Vec F S1x16000 .f32 :=
  View.canon [⟨rE, k0_pay3 (View.ld x0 rX) (View.ld x1 rW) (View.ld x2 rB) (View.ld x3 rE) (View.ld x4 rE)⟩]
/-- The third: the same product divided by the third scalar row. -/
def out0_8 (x0 : Vec F S16000x16 .f32) (x1 : Vec F S1x16 .f32) (x2 : Vec F S1x1 .f32) (x3 : Vec F S1x16000 .f32) (x5 : Vec F S1x16000 .f32) : Vec F S1x16000 .f32 :=
  View.canon [⟨rE, k0_pay4 (View.ld x0 rX) (View.ld x1 rW) (View.ld x2 rB) (View.ld x3 rE) (View.ld x5 rE)⟩]

/-- One store through the whole-block rectangle covers the block. -/
theorem coverE (p0 : Vec F S1x16000 .f32) (y : S1x16000.Idx) :
    ∃ pc ∈ ([⟨rE, p0⟩] : List (View.Piece (Elt F) S1x16000 .f32)), y ∈ pc.1.set :=
  View.cover_of_tiled [⟨rE, p0⟩] S1x16000.size (by rfl) y

/-! ## The body's triple -/

set_option maxHeartbeats 4000000 in
/-- The body on whole staging memrefs, the inputs' at read contents and the outputs' at anything, runs to the
    continuation holding the inputs' as they were and each output's at its payload of the inputs'. -/
theorem sound_kernel (c : Dev nD) (E : Set ℕ) (i : grid0.Coords)
    (arg1 : Memref sig .tc .vmem S16000x16 .f32) (harg1 : arg1.IsWhole) (arg2 : Memref sig .tc .vmem S1x16 .f32) (harg2 : arg2.IsWhole)
    (arg3 : Memref sig .tc .vmem S1x1 .f32) (harg3 : arg3.IsWhole) (arg4 : Memref sig .tc .vmem S1x16000 .f32) (harg4 : arg4.IsWhole)
    (arg5 : Memref sig .tc .vmem S1x16000 .f32) (harg5 : arg5.IsWhole) (arg6 : Memref sig .tc .vmem S1x16000 .f32) (harg6 : arg6.IsWhole)
    (arg7 : Memref sig .tc .vmem S1x16000 .f32) (harg7 : arg7.IsWhole) (arg8 : Memref sig .tc .vmem S1x16000 .f32) (harg8 : arg8.IsWhole)
    (arg9 : Memref sig .tc .vmem S1x16000 .f32) (harg9 : arg9.IsWhole)
    (x0 : Vec F S16000x16 .f32) (x1 : Vec F S1x16 .f32) (x2 : Vec F S1x1 .f32) (x3 : Vec F S1x16000 .f32) (x4 : Vec F S1x16000 .f32) (x5 : Vec F S1x16000 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2) ∗ owns (c : Thread nD τ) arg8 fullShare (out0_7 x0 x1 x2 x3 x4)
            ∗ owns (c : Thread nD τ) arg9 fullShare (out0_8 x0 x1 x2 x3 x5)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverE _)
  isplitl [H7]
  · iexists _; isplitr
    swap; · iexact H7
    ipureintro
    exact View.read_writes_eq_canon _ _ _ (coverE _)
  iexists _; isplitr
  swap; · iexact H8
  ipureintro
  exact View.read_writes_eq_canon _ _ _ (coverE _)

/-! ## The pipeline's proof data -/

/-- The arrays as the region finds them; after the body each input's buffer at its block and each output's at its
    payload of the input blocks; the invariant the scoped rest and the generator register, untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t)
    | ⟨7, _⟩ => out0_7 (iblk m c 0 t) (iblk m c 1 t) (iblk m c 2 t) (iblk m c 3 t) (iblk m c 4 t)
    | ⟨8, _⟩ => out0_8 (iblk m c 0 t) (iblk m c 1 t) (iblk m c 2 t) (iblk m c 3 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) := by dsimp only [dats]
theorem after0_7 (c : Dev nD) (t : Fin cfg0.N) : (dats m 0 c).after 7 t = out0_7 (iblk m c 0 t) (iblk m c 1 t) (iblk m c 2 t) (iblk m c 3 t) (iblk m c 4 t) := by dsimp only [dats]
theorem after0_8 (c : Dev nD) (t : Fin cfg0.N) : (dats m 0 c).after 8 t = out0_8 (iblk m c 0 t) (iblk m c 1 t) (iblk m c 2 t) (iblk m c 3 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
/-- The body at any point: the inputs' memrefs hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; every array of the pipeline ends at what the proof data
    compute, every other unscoped buffer at what the later host operations leave from the region's exit. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-! ## The arguments end as launched -/

/-- A buffer that no later host operation writes, and that is no array of the pipeline, ends as the region found it. -/
theorem tail_kept (c : Dev nD) (b : Ref sig .tc)
    (hb : ∀ op ∈ (tailOps (F := F)).flatten, Proc.devRef .tc b ∉ op.writes) (hw : ∀ w, Pipeline.arrRef spec0 w ≠ b) :
    Pipeline.afterTail₀ cfgs (dats m) 0 (V0 m) tailOps c b = V m c b := by
  unfold Pipeline.afterTail₀
  rw [StableHlo.after_of_forall_not_mem _ _ hb]
  exact Pipeline.withArrays_of_ne _ c _ _ b hw

/-- No host operation writes `main_arg0`. -/
theorem pre_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide)))
theorem post_main_arg0 (c : Dev nD) : Pipeline.afterTail₀ cfgs (dats m) 0 (V0 m) tailOps c main_arg0 = m ((c : Thread nD τ).loc main_arg0) :=
  (tail_kept m c main_arg0 (List.forall_iff_forall_mem.mp (by
    simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide))) (fun w => by fin_cases w <;> decide)).trans (pre_main_arg0 m c)
/-- No host operation writes `main_arg1`. -/
theorem pre_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide)))
theorem post_main_arg1 (c : Dev nD) : Pipeline.afterTail₀ cfgs (dats m) 0 (V0 m) tailOps c main_arg1 = m ((c : Thread nD τ).loc main_arg1) :=
  (tail_kept m c main_arg1 (List.forall_iff_forall_mem.mp (by
    simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide))) (fun w => by fin_cases w <;> decide)).trans (pre_main_arg1 m c)
/-- No host operation writes `main_arg2`. -/
theorem pre_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide)))
theorem post_main_arg2 (c : Dev nD) : Pipeline.afterTail₀ cfgs (dats m) 0 (V0 m) tailOps c main_arg2 = m ((c : Thread nD τ).loc main_arg2) :=
  (tail_kept m c main_arg2 (List.forall_iff_forall_mem.mp (by
    simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide))) (fun w => by fin_cases w <;> decide)).trans (pre_main_arg2 m c)
/-- No host operation writes `main_arg3`. -/
theorem pre_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide)))
theorem post_main_arg3 (c : Dev nD) : Pipeline.afterTail₀ cfgs (dats m) 0 (V0 m) tailOps c main_arg3 = m ((c : Thread nD τ).loc main_arg3) :=
  (tail_kept m c main_arg3 (List.forall_iff_forall_mem.mp (by
    simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide))) (fun w => by fin_cases w <;> decide)).trans (pre_main_arg3 m c)
/-- No host operation writes `main_arg4`. -/
theorem pre_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide)))
theorem post_main_arg4 (c : Dev nD) : Pipeline.afterTail₀ cfgs (dats m) 0 (V0 m) tailOps c main_arg4 = m ((c : Thread nD τ).loc main_arg4) :=
  (tail_kept m c main_arg4 (List.forall_iff_forall_mem.mp (by
    simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide))) (fun w => by fin_cases w <;> decide)).trans (pre_main_arg4 m c)

/-- THE FRAME: @main runs, faults nowhere, and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (post_main_arg0 m c),
     ((h c).2 main_arg1 (Pipeline.mem_restRefs_of main_arg1 (by decide) (by decide))).trans (post_main_arg1 m c),
     ((h c).2 main_arg2 (Pipeline.mem_restRefs_of main_arg2 (by decide) (by decide))).trans (post_main_arg2 m c),
     ((h c).2 main_arg3 (Pipeline.mem_restRefs_of main_arg3 (by decide) (by decide))).trans (post_main_arg3 m c),
     ((h c).2 main_arg4 (Pipeline.mem_restRefs_of main_arg4 (by decide) (by decide))).trans (post_main_arg4 m c)⟩) (run_main m ρ)

end Cert.Kernel.Hand

end
-- ==== Proof.KFrameA.lean ====
/-
  The frame of the idealized kernel program, at any float instance: @main is host operations, one pipelined region over
  125 grid points, and host operations again. At each point the body reads a block of 16000 edges' features, the
  weight row and the bias, and three rows of per-edge scalars, and stores three rows of 16000 values: the affine
  map of the features, and that value times one scalar divided by each of two others. Nothing it stores depends
  on what the output buffers held. The host operations after the region write only their own result buffers, so
  the region's arrays and @main's arguments end as the region left them.
-/
import proofs.«132385_j48275432407577_1_alg».proof.Proof.Gen.KernelIdeal.Launch
import proofs.«132385_j48275432407577_1_alg».proof.Proof.Gen.KernelIdeal.Skeleton
import proofs.«132385_j48275432407577_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: after the host operations that precede it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations after the region, stretch by stretch. -/
abbrev tailOps : List (List (HloOp τ sig (Elt F))) :=
  [hostOps1, hostOps1_1, hostOps1_2, hostOps1_3, hostOps1_4, hostOps1_5, hostOps1_6]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main reduces to the region continued by the later host operations, entered at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later host operations touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

/-- No operation of this stretch writes an array the region stages: each writes its own result buffer. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
  repeat' apply And.intro
  all_goals intro w; fin_cases w <;> exact StableHlo.devRef_ne_of_ne (by decide)
/-- No operation of this stretch writes an array the region stages: each writes its own result buffer. -/
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
  repeat' apply And.intro
  all_goals intro w; fin_cases w <;> exact StableHlo.devRef_ne_of_ne (by decide)
/-- No operation of this stretch writes an array the region stages: each writes its own result buffer. -/
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
  repeat' apply And.intro
  all_goals intro w; fin_cases w <;> exact StableHlo.devRef_ne_of_ne (by decide)
/-- No operation of this stretch writes an array the region stages: each writes its own result buffer. -/
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
  repeat' apply And.intro
  all_goals intro w; fin_cases w <;> exact StableHlo.devRef_ne_of_ne (by decide)
/-- No operation of this stretch writes an array the region stages: each writes its own result buffer. -/
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
  repeat' apply And.intro
  all_goals intro w; fin_cases w <;> exact StableHlo.devRef_ne_of_ne (by decide)
/-- No operation of this stretch writes an array the region stages: each writes its own result buffer. -/
theorem hostOps1_5_keeps : (hostOps1_5 : List (HloOp τ sig (Elt F))).Forall fun op =>
    ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
  repeat' apply And.intro
  all_goals intro w; fin_cases w <;> exact StableHlo.devRef_ne_of_ne (by decide)
/-- No operation of this stretch writes an array the region stages: each writes its own result buffer. -/
theorem hostOps1_6_keeps : (hostOps1_6 : List (HloOp τ sig (Elt F))).Forall fun op =>
    ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
  repeat' apply And.intro
  all_goals intro w; fin_cases w <;> exact StableHlo.devRef_ne_of_ne (by decide)

/-- The later host operations write no array the region stages. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

end Cert.KernelIdeal.Hand

end
-- ==== Proof.KFrameB.lean ====
/-
  The idealized kernel program's run, at any float instance. The body's three stores each cover a whole output
  block, so after the body an output's staging buffer holds one payload of the six input blocks; an input's
  staging buffer holds its array's block at every grid point, whether the pipeline fetched it there or kept it
  from the first point (the weight row and the bias). With this proof data the region runs, the host operations
  after it run from its exit, and every buffer no operation writes ends as @main found it.
-/
import proofs.«132385_j48275432407577_1_alg».proof.Proof.KFrameA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in each output window's buffer -/

abbrev rX : Rect S16000x16 := Rect.unit (s := S16000x16) ![0, 0] S16000x16.size inb_S16000x16_S16000x16_0_0
abbrev rW : Rect S1x16 := Rect.unit (s := S1x16) ![0, 0] S1x16.size inb_S1x16_S1x16_0_0
abbrev rB : Rect S1x1 := Rect.unit (s := S1x1) ![0, 0] S1x1.size inb_S1x1_S1x1_0_0
abbrev rE : Rect S1x16000 := Rect.unit (s := S1x16000) ![0, 0] S1x16000.size inb_S1x16000_S1x16000_0_0

/-- The first output block: the affine map of the feature block by the weight row and the bias. -/
def out0_6 (x0 : Vec F S16000x16 .f32) (x1 : Vec F S1x16 .f32) (x2 : Vec F S1x1 .f32) : Vec F S1x16000 .f32 :=
  View.canon [⟨rE, k0_pay1 (View.ld x0 rX) (View.ld x1 rW) (View.ld x2 rB)⟩]
/-- The second: that value times the first scalar row, divided by the second. -/
def out0_7 (x0 : Vec F S16000x16 .f32) (x1 : Vec F S1x16 .f32) (x2 : Vec F S1x1 .f32) (x3 : Vec F S1x16000 .f32) (x4 : Vec F S1x16000 .f32) : Vec F S1x16000 .f32 :=
  View.canon [⟨rE, k0_pay3 (View.ld x0 rX) (View.ld x1 rW) (View.ld x2 rB) (View.ld x3 rE) (View.ld x4 rE)⟩]
/-- The third: the same product divided by the third scalar row. -/
def out0_8 (x0 : Vec F S16000x16 .f32) (x1 : Vec F S1x16 .f32) (x2 : Vec F S1x1 .f32) (x3 : Vec F S1x16000 .f32) (x5 : Vec F S1x16000 .f32) : Vec F S1x16000 .f32 :=
  View.canon [⟨rE, k0_pay4 (View.ld x0 rX) (View.ld x1 rW) (View.ld x2 rB) (View.ld x3 rE) (View.ld x5 rE)⟩]

/-- One store through the whole-block rectangle covers the block. -/
theorem coverE (p0 : Vec F S1x16000 .f32) (y : S1x16000.Idx) :
    ∃ pc ∈ ([⟨rE, p0⟩] : List (View.Piece (Elt F) S1x16000 .f32)), y ∈ pc.1.set :=
  View.cover_of_tiled [⟨rE, p0⟩] S1x16000.size (by rfl) y

/-! ## The body's triple -/

set_option maxHeartbeats 4000000 in
/-- The body on whole staging memrefs, the inputs' at read contents and the outputs' at anything, runs to the
    continuation holding the inputs' as they were and each output's at its payload of the inputs'. -/
theorem sound_kernel (c : Dev nD) (E : Set ℕ) (i : grid0.Coords)
    (arg1 : Memref sig .tc .vmem S16000x16 .f32) (harg1 : arg1.IsWhole) (arg2 : Memref sig .tc .vmem S1x16 .f32) (harg2 : arg2.IsWhole)
    (arg3 : Memref sig .tc .vmem S1x1 .f32) (harg3 : arg3.IsWhole) (arg4 : Memref sig .tc .vmem S1x16000 .f32) (harg4 : arg4.IsWhole)
    (arg5 : Memref sig .tc .vmem S1x16000 .f32) (harg5 : arg5.IsWhole) (arg6 : Memref sig .tc .vmem S1x16000 .f32) (harg6 : arg6.IsWhole)
    (arg7 : Memref sig .tc .vmem S1x16000 .f32) (harg7 : arg7.IsWhole) (arg8 : Memref sig .tc .vmem S1x16000 .f32) (harg8 : arg8.IsWhole)
    (arg9 : Memref sig .tc .vmem S1x16000 .f32) (harg9 : arg9.IsWhole)
    (x0 : Vec F S16000x16 .f32) (x1 : Vec F S1x16 .f32) (x2 : Vec F S1x1 .f32) (x3 : Vec F S1x16000 .f32) (x4 : Vec F S1x16000 .f32) (x5 : Vec F S1x16000 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2) ∗ owns (c : Thread nD τ) arg8 fullShare (out0_7 x0 x1 x2 x3 x4)
            ∗ owns (c : Thread nD τ) arg9 fullShare (out0_8 x0 x1 x2 x3 x5)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverE _)
  isplitl [H7]
  · iexists _; isplitr
    swap; · iexact H7
    ipureintro
    exact View.read_writes_eq_canon _ _ _ (coverE _)
  iexists _; isplitr
  swap; · iexact H8
  ipureintro
  exact View.read_writes_eq_canon _ _ _ (coverE _)

/-! ## The pipeline's proof data -/

/-- The arrays as the region finds them; after the body each input's buffer at its block and each output's at its
    payload of the input blocks; the invariant the scoped rest and the generator register, untouched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t)
    | ⟨7, _⟩ => out0_7 (iblk m c 0 t) (iblk m c 1 t) (iblk m c 2 t) (iblk m c 3 t) (iblk m c 4 t)
    | ⟨8, _⟩ => out0_8 (iblk m c 0 t) (iblk m c 1 t) (iblk m c 2 t) (iblk m c 3 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) := by dsimp only [dats]
theorem after0_7 (c : Dev nD) (t : Fin cfg0.N) : (dats m 0 c).after 7 t = out0_7 (iblk m c 0 t) (iblk m c 1 t) (iblk m c 2 t) (iblk m c 3 t) (iblk m c 4 t) := by dsimp only [dats]
theorem after0_8 (c : Dev nD) (t : Fin cfg0.N) : (dats m 0 c).after 8 t = out0_8 (iblk m c 0 t) (iblk m c 1 t) (iblk m c 2 t) (iblk m c 3 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
/-- The body at any point: the inputs' memrefs hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; every array of the pipeline ends at what the proof data
    compute, every other unscoped buffer at what the later host operations leave from the region's exit. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-! ## The arguments end as launched -/

/-- A buffer that no later host operation writes, and that is no array of the pipeline, ends as the region found it. -/
theorem tail_kept (c : Dev nD) (b : Ref sig .tc)
    (hb : ∀ op ∈ (tailOps (F := F)).flatten, Proc.devRef .tc b ∉ op.writes) (hw : ∀ w, Pipeline.arrRef spec0 w ≠ b) :
    Pipeline.afterTail₀ cfgs (dats m) 0 (V0 m) tailOps c b = V m c b := by
  unfold Pipeline.afterTail₀
  rw [StableHlo.after_of_forall_not_mem _ _ hb]
  exact Pipeline.withArrays_of_ne _ c _ _ b hw

/-- No host operation writes `main_arg0`. -/
theorem pre_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide)))
theorem post_main_arg0 (c : Dev nD) : Pipeline.afterTail₀ cfgs (dats m) 0 (V0 m) tailOps c main_arg0 = m ((c : Thread nD τ).loc main_arg0) :=
  (tail_kept m c main_arg0 (List.forall_iff_forall_mem.mp (by
    simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide))) (fun w => by fin_cases w <;> decide)).trans (pre_main_arg0 m c)
/-- No host operation writes `main_arg1`. -/
theorem pre_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide)))
theorem post_main_arg1 (c : Dev nD) : Pipeline.afterTail₀ cfgs (dats m) 0 (V0 m) tailOps c main_arg1 = m ((c : Thread nD τ).loc main_arg1) :=
  (tail_kept m c main_arg1 (List.forall_iff_forall_mem.mp (by
    simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide))) (fun w => by fin_cases w <;> decide)).trans (pre_main_arg1 m c)
/-- No host operation writes `main_arg2`. -/
theorem pre_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide)))
theorem post_main_arg2 (c : Dev nD) : Pipeline.afterTail₀ cfgs (dats m) 0 (V0 m) tailOps c main_arg2 = m ((c : Thread nD τ).loc main_arg2) :=
  (tail_kept m c main_arg2 (List.forall_iff_forall_mem.mp (by
    simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide))) (fun w => by fin_cases w <;> decide)).trans (pre_main_arg2 m c)
/-- No host operation writes `main_arg3`. -/
theorem pre_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide)))
theorem post_main_arg3 (c : Dev nD) : Pipeline.afterTail₀ cfgs (dats m) 0 (V0 m) tailOps c main_arg3 = m ((c : Thread nD τ).loc main_arg3) :=
  (tail_kept m c main_arg3 (List.forall_iff_forall_mem.mp (by
    simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide))) (fun w => by fin_cases w <;> decide)).trans (pre_main_arg3 m c)
/-- No host operation writes `main_arg4`. -/
theorem pre_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide)))
theorem post_main_arg4 (c : Dev nD) : Pipeline.afterTail₀ cfgs (dats m) 0 (V0 m) tailOps c main_arg4 = m ((c : Thread nD τ).loc main_arg4) :=
  (tail_kept m c main_arg4 (List.forall_iff_forall_mem.mp (by
    simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.TRef.unary, StableHlo.TRef.ternary, StableHlo.TRef.of, Finset.mem_singleton]
    repeat' apply And.intro
    all_goals exact StableHlo.devRef_ne_of_ne (by decide))) (fun w => by fin_cases w <;> decide)).trans (pre_main_arg4 m c)

/-- THE FRAME: @main runs, faults nowhere, and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (post_main_arg0 m c),
     ((h c).2 main_arg1 (Pipeline.mem_restRefs_of main_arg1 (by decide) (by decide))).trans (post_main_arg1 m c),
     ((h c).2 main_arg2 (Pipeline.mem_restRefs_of main_arg2 (by decide) (by decide))).trans (post_main_arg2 m c),
     ((h c).2 main_arg3 (Pipeline.mem_restRefs_of main_arg3 (by decide) (by decide))).trans (post_main_arg3 m c),
     ((h c).2 main_arg4 (Pipeline.mem_restRefs_of main_arg4 (by decide) (by decide))).trans (post_main_arg4 m c)⟩) (run_main m ρ)

end Cert.KernelIdeal.Hand

end
-- ==== Proof.Spec.lean ====
/-
  The part of the computation both programs share, as one function, and the per-edge value they must agree on.

  Both programs end with the same host operations: from the two endpoint rows `src`, `dst` of the edge list, the two
  per-edge value rows `vsrc`, `vdst`, and the per-node rows `conc`, `people`, `size`, they number the writes
  (write 2i to src[i], write 2i+1 to dst[i], -1 for a self-loop), take per node the largest write number, keep of
  each node's writes only that last one, scatter-add the kept values into zeros, and return
  conc + that + 4 * people / size as a column. `lastWrite` is that function; neither program's value is opened
  beyond it.
-/
import proofs.«132385_j48275432407577_1_alg».proof.Proof.Gen.KernelIdeal
import Idealize.ShloMosaic.PureOps.Ideal
import Idealize.ShloMosaic.Lib.ValueIdx

noncomputable section

namespace Cert.Spec

open Cert.KernelIdeal Cert.KernelIdeal.Facts₀ Idealize.ShloMosaic Idealize.ShloMosaic.ValueIdx

variable {F : FTy → Type} [FloatOps F]

/-- A row of node ids made an index column, a negative id wrapped once by the node count. -/
def wrapNodes (s : (⟨S2000000, .i32⟩ : BufTy).Contents (Elt F)) : (⟨S2000000x1, .i32⟩ : BufTy).Contents (Elt F) :=
  broadcastInDim S2000000x1 ![0] bcast_S2000000_S2000000x1_0
    (select (cmpi .slt s (broadcastInDim S2000000 ![] bcast_S_S2000000 (constantI S_ 32 0#32)))
      (addi s (broadcastInDim S2000000 ![] bcast_S_S2000000 (constantI S_ 32 100000#32))) s)

/-- Both endpoint rows, one after the other: the node each of the 4,000,000 writes goes to. -/
def ids (src dst : (⟨S2000000, .i32⟩ : BufTy).Contents (Elt F)) : (⟨S4000000, .i32⟩ : BufTy).Contents (Elt F) :=
  concatenate S4000000 0 [⟨S2000000, src⟩, ⟨S2000000, dst⟩] concatenates_S2000000_S2000000_S4000000_d0

/-- The same as an index column, negative ids wrapped. -/
def idsCol (src dst : (⟨S2000000, .i32⟩ : BufTy).Contents (Elt F)) : (⟨S4000000x1, .i32⟩ : BufTy).Contents (Elt F) :=
  broadcastInDim S4000000x1 ![0] bcast_S4000000_S4000000x1_0
    (select (cmpi .slt (ids src dst) (broadcastInDim S4000000 ![] bcast_S_S4000000 (constantI S_ 32 0#32)))
      (addi (ids src dst) (broadcastInDim S4000000 ![] bcast_S_S4000000 (constantI S_ 32 100000#32))) (ids src dst))

/-- The writes' numbers: 2i for edge i's write to its source, 2i+1 for its write to its target, -1 where the edge is a
    self-loop. -/
def orders (src dst : (⟨S2000000, .i32⟩ : BufTy).Contents (Elt F)) : (⟨S4000000, .i32⟩ : BufTy).Contents (Elt F) :=
  concatenate S4000000 0
    [⟨S2000000, select (cmpi .ne src dst)
        (muli (broadcastInDim S2000000 ![] bcast_S_S2000000 (constantI S_ 32 2#32)) (iotaInDim S2000000 32 0))
        (broadcastInDim S2000000 ![] bcast_S_S2000000 (id (constantI S_ 32 4294967295#32)))⟩,
     ⟨S2000000, select (cmpi .ne src dst)
        (addi (muli (broadcastInDim S2000000 ![] bcast_S_S2000000 (constantI S_ 32 2#32)) (iotaInDim S2000000 32 0))
          (broadcastInDim S2000000 ![] bcast_S_S2000000 (constantI S_ 32 1#32)))
        (broadcastInDim S2000000 ![] bcast_S_S2000000 (id (constantI S_ 32 4294967295#32)))⟩]
    concatenates_S2000000_S2000000_S4000000_d0

/-- Per node, the largest number of a write to it. -/
def lastOrder (src dst : (⟨S2000000, .i32⟩ : BufTy).Contents (Elt F)) : (⟨S100000, .i32⟩ : BufTy).Contents (Elt F) :=
  Host.scatter scatter_S100000_S4000000x1_S4000000_n_0_0_1 IntOp.maxsi
    (broadcastInDim S100000 ![] bcast_S_S100000 (constantI S_ 32 2147483648#32))
    (broadcastInDim S4000000x1 ![0] bcast_S4000000_S4000000x1_0 (ids src dst)) (orders src dst)

/-- The writes that count: not a self-loop's, and the last one to their node. -/
def kept (src dst : (⟨S2000000, .i32⟩ : BufTy).Contents (Elt F)) : (⟨S4000000, .i1⟩ : BufTy).Contents (Elt F) :=
  andi (cmpi .sge (orders src dst) (broadcastInDim S4000000 ![] bcast_S_S4000000 (constantI S_ 32 0#32)))
    (cmpi .eq (orders src dst)
      (Host.gather gather_S100000_S4000000x1_S4000000_n_0_n_n_0_1_1 (lastOrder src dst) (idsCol src dst)))

/-- Per node, the value its last write left (zero where nothing was written). -/
def written (src dst : (⟨S2000000, .i32⟩ : BufTy).Contents (Elt F)) (vsrc vdst : (⟨S2000000, .f32⟩ : BufTy).Contents (Elt F)) :
    (⟨S100000, .f32⟩ : BufTy).Contents (Elt F) :=
  Host.scatterAdd scatter_S100000_S4000000x1_S4000000_n_0_0_1
    (broadcastInDim S100000 ![] bcast_S_S100000 (constant S_ .f32 0x00000000#32))
    (idsCol src dst)
    (select (kept src dst)
      (concatenate S4000000 0 [⟨S2000000, vsrc⟩, ⟨S2000000, vdst⟩] concatenates_S2000000_S2000000_S4000000_d0)
      (broadcastInDim S4000000 ![] bcast_S_S4000000 (id (constant S_ .f32 0x00000000#32))))

/-- The first result: conc + written + 4 * people / size, as a column. -/
def lastWrite (src dst : (⟨S2000000, .i32⟩ : BufTy).Contents (Elt F)) (vsrc vdst : (⟨S2000000, .f32⟩ : BufTy).Contents (Elt F))
    (conc people size : (⟨S100000, .f32⟩ : BufTy).Contents (Elt F)) : (⟨S100000x1, .f32⟩ : BufTy).Contents (Elt F) :=
  broadcastInDim S100000x1 ![0] bcast_S100000_S100000x1_0
    (addf (addf conc (written src dst vsrc vdst))
      (Host.divf (mulf (broadcastInDim S100000 ![] bcast_S_S100000 (constant S_ .f32 0x40800000#32)) people) size))

/-! ## The rows both programs read off the arguments before anything else -/

/-- The three per-node columns of the last time step: concentration, people, size. -/
def concRow (a0 : (⟨S100000x8x3, .f32⟩ : BufTy).Contents (Elt F)) : (⟨S100000, .f32⟩ : BufTy).Contents (Elt F) :=
  shapeCast _ (extractStridedSlice S100000x1x1 ![0, 7, 0] a0 slices_S100000x8x3_S100000x1x1_0_7_0) shapeCasts_S100000x1x1_S100000
def peopleRow (a0 : (⟨S100000x8x3, .f32⟩ : BufTy).Contents (Elt F)) : (⟨S100000, .f32⟩ : BufTy).Contents (Elt F) :=
  shapeCast _ (extractStridedSlice S100000x1x1 ![0, 7, 1] a0 slices_S100000x8x3_S100000x1x1_0_7_1) shapeCasts_S100000x1x1_S100000
def sizeRow (a0 : (⟨S100000x8x3, .f32⟩ : BufTy).Contents (Elt F)) : (⟨S100000, .f32⟩ : BufTy).Contents (Elt F) :=
  shapeCast _ (extractStridedSlice S100000x1x1 ![0, 7, 2] a0 slices_S100000x8x3_S100000x1x1_0_7_2) shapeCasts_S100000x1x1_S100000

/-- The two rows of the edge list: sources, targets. -/
def srcRow (a4 : (⟨S2x2000000, .i32⟩ : BufTy).Contents (Elt F)) : (⟨S2000000, .i32⟩ : BufTy).Contents (Elt F) :=
  shapeCast _ (extractStridedSlice S1x2000000 ![0, 0] a4 slices_S2x2000000_S1x2000000_0_0) shapeCasts_S1x2000000_S2000000
def dstRow (a4 : (⟨S2x2000000, .i32⟩ : BufTy).Contents (Elt F)) : (⟨S2000000, .i32⟩ : BufTy).Contents (Elt F) :=
  shapeCast _ (extractStridedSlice S1x2000000 ![1, 0] a4 slices_S2x2000000_S1x2000000_1_0) shapeCasts_S1x2000000_S2000000

/-- A per-node row gathered along a row of node ids. -/
def gatherRow (tbl : (⟨S100000, .f32⟩ : BufTy).Contents (Elt F)) (s : (⟨S2000000, .i32⟩ : BufTy).Contents (Elt F)) :
    (⟨S2000000, .f32⟩ : BufTy).Contents (Elt F) :=
  Host.gather gather_S100000_S2000000x1_S2000000_n_0_n_n_0_1_1 tbl (wrapNodes s)

/-! ## The per-edge value, at the ideal instance -/

/-- Edge `e`'s flow: the weights' product with its sixteen features, plus the bias. -/
def flowAt (x : S2000000x16.Idx → EReal) (w : S1x16.Idx → EReal) (b : S1x1.Idx → EReal) (e : Fin 2000000) : EReal :=
  (∑ k : Fin 16, w (ix2 (0 : Fin 1) k) * x (ix2 e k)) + b (ix2 (0 : Fin 1) (0 : Fin 1))

end Cert.Spec

end
-- ==== Proof.KHost.lean ====
/-
  The idealized kernel program's host operations, read as functions, at any float instance.
  Before the region they cut the per-node columns and the two endpoint rows out of the arguments, gather the
  concentration and the size along the endpoints, and reshape the features, the weights and the bias for the kernel.
  After it they reshape the three arrays the kernel wrote and apply the shared last-write function to the second and
  third. Each fold is first read over an arbitrary valuation of the buffers, so that no array's contents is opened.
-/
import proofs.«132385_j48275432407577_1_alg».proof.Proof.KFrameB
import proofs.«132385_j48275432407577_1_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable {F : FTy → Type} [FloatOps F]

/-! ## The host operations before the region, over any valuation -/

section Before
variable (W : Valuation τ sig (Elt F))

set_option maxHeartbeats 4000000 in
theorem before_v1 : StableHlo.after (hostOps0 (F := F)) W (Proc.devRef .tc main_v1) = Cert.Spec.concRow (W (Proc.devRef .tc main_arg0)) := by
  simp only [hostOps0]; after_results_simp; rfl
set_option maxHeartbeats 4000000 in
theorem before_v3 : StableHlo.after (hostOps0 (F := F)) W (Proc.devRef .tc main_v3) = Cert.Spec.peopleRow (W (Proc.devRef .tc main_arg0)) := by
  simp only [hostOps0]; after_results_simp; rfl
set_option maxHeartbeats 4000000 in
theorem before_v5 : StableHlo.after (hostOps0 (F := F)) W (Proc.devRef .tc main_v5) = Cert.Spec.sizeRow (W (Proc.devRef .tc main_arg0)) := by
  simp only [hostOps0]; after_results_simp; rfl
set_option maxHeartbeats 4000000 in
theorem before_v7 : StableHlo.after (hostOps0 (F := F)) W (Proc.devRef .tc main_v7) = Cert.Spec.srcRow (W (Proc.devRef .tc main_arg4)) := by
  simp only [hostOps0]; after_results_simp; rfl
set_option maxHeartbeats 4000000 in
theorem before_v9 : StableHlo.after (hostOps0 (F := F)) W (Proc.devRef .tc main_v9) = Cert.Spec.dstRow (W (Proc.devRef .tc main_arg4)) := by
  simp only [hostOps0]; after_results_simp; rfl
set_option maxHeartbeats 4000000 in
theorem before_v31 : StableHlo.after (hostOps0 (F := F)) W (Proc.devRef .tc main_v31)
    = shapeCast _ (W (Proc.devRef .tc main_arg1)) shapeCasts_S2000000x1x16_S2000000x16 := by
  simp only [hostOps0]; after_results_simp; rfl
set_option maxHeartbeats 4000000 in
theorem before_v33 : StableHlo.after (hostOps0 (F := F)) W (Proc.devRef .tc main_v33)
    = shapeCast _ (shapeCast _ (W (Proc.devRef .tc main_arg2)) shapeCasts_S1x16x1x1_S16) shapeCasts_S16_S1x16 := by
  simp only [hostOps0]; after_results_simp; rfl
set_option maxHeartbeats 4000000 in
theorem before_v34 : StableHlo.after (hostOps0 (F := F)) W (Proc.devRef .tc main_v34)
    = shapeCast _ (W (Proc.devRef .tc main_arg3)) shapeCasts_S1_S1x1 := by
  simp only [hostOps0]; after_results_simp; rfl
set_option maxHeartbeats 4000000 in
theorem before_v35 : StableHlo.after (hostOps0 (F := F)) W (Proc.devRef .tc main_v35)
    = shapeCast _ (Cert.Spec.gatherRow (Cert.Spec.concRow (W (Proc.devRef .tc main_arg0))) (Cert.Spec.srcRow (W (Proc.devRef .tc main_arg4))))
        shapeCasts_S2000000_S1x2000000 := by
  simp only [hostOps0]; after_results_simp; rfl
set_option maxHeartbeats 4000000 in
theorem before_v36 : StableHlo.after (hostOps0 (F := F)) W (Proc.devRef .tc main_v36)
    = shapeCast _ (Cert.Spec.gatherRow (Cert.Spec.sizeRow (W (Proc.devRef .tc main_arg0))) (Cert.Spec.srcRow (W (Proc.devRef .tc main_arg4))))
        shapeCasts_S2000000_S1x2000000 := by
  simp only [hostOps0]; after_results_simp; rfl
set_option maxHeartbeats 4000000 in
theorem before_v37 : StableHlo.after (hostOps0 (F := F)) W (Proc.devRef .tc main_v37)
    = shapeCast _ (Cert.Spec.gatherRow (Cert.Spec.sizeRow (W (Proc.devRef .tc main_arg0))) (Cert.Spec.dstRow (W (Proc.devRef .tc main_arg4))))
        shapeCasts_S2000000_S1x2000000 := by
  simp only [hostOps0]; after_results_simp; rfl

end Before

/-! ## The host operations after the region, over any valuation -/

section After
variable (W : Valuation τ sig (Elt F))

set_option maxHeartbeats 8000000 in
/-- The first result: the last-write function of the endpoint rows, the kernel's second and third arrays as rows, and
    the three per-node columns. -/
theorem after_v83 : StableHlo.after (List.flatten (tailOps (F := F))) W (Proc.devRef .tc main_v83)
    = Cert.Spec.lastWrite (W (Proc.devRef .tc main_v7)) (W (Proc.devRef .tc main_v9))
        (shapeCast _ (W (Proc.devRef .tc main_v38_1)) shapeCasts_S1x2000000_S2000000)
        (shapeCast _ (W (Proc.devRef .tc main_v38_2)) shapeCasts_S1x2000000_S2000000)
        (W (Proc.devRef .tc main_v1)) (W (Proc.devRef .tc main_v3)) (W (Proc.devRef .tc main_v5)) := by
  simp only [tailOps, hostOps1, hostOps1_1, hostOps1_2, hostOps1_3, hostOps1_4, hostOps1_5, hostOps1_6, List.flatten_cons, List.flatten_nil, List.append_nil, List.cons_append, List.nil_append]
  after_results_simp
  rfl

set_option maxHeartbeats 8000000 in
/-- The second result: the kernel's first array as a [2000000, 1, 1] column. -/
theorem after_v39 : StableHlo.after (List.flatten (tailOps (F := F))) W (Proc.devRef .tc main_v39)
    = shapeCast _ (W (Proc.devRef .tc main_v38_0)) shapeCasts_S1x2000000_S2000000x1x1 := by
  simp only [tailOps, hostOps1, hostOps1_1, hostOps1_2, hostOps1_3, hostOps1_4, hostOps1_5, hostOps1_6, List.flatten_cons, List.flatten_nil, List.append_nil, List.cons_append, List.nil_append]
  after_results_simp
  rfl

end After

/-! ## At the run's own valuations -/

variable (m : (ℓ : Loc nD τ sig) → Buf (Elt F) ℓ)

theorem pre_v1 (c : Dev nD) : V m c main_v1 = Cert.Spec.concRow (m ((c : Thread nD τ).loc main_arg0)) := by
  show StableHlo.after hostOps0 (fun b => m (c, b)) (Proc.devRef .tc main_v1) = _
  exact before_v1 _
theorem pre_v3 (c : Dev nD) : V m c main_v3 = Cert.Spec.peopleRow (m ((c : Thread nD τ).loc main_arg0)) := by
  show StableHlo.after hostOps0 (fun b => m (c, b)) (Proc.devRef .tc main_v3) = _
  exact before_v3 _
theorem pre_v5 (c : Dev nD) : V m c main_v5 = Cert.Spec.sizeRow (m ((c : Thread nD τ).loc main_arg0)) := by
  show StableHlo.after hostOps0 (fun b => m (c, b)) (Proc.devRef .tc main_v5) = _
  exact before_v5 _
theorem pre_v7 (c : Dev nD) : V m c main_v7 = Cert.Spec.srcRow (m ((c : Thread nD τ).loc main_arg4)) := by
  show StableHlo.after hostOps0 (fun b => m (c, b)) (Proc.devRef .tc main_v7) = _
  exact before_v7 _
theorem pre_v9 (c : Dev nD) : V m c main_v9 = Cert.Spec.dstRow (m ((c : Thread nD τ).loc main_arg4)) := by
  show StableHlo.after hostOps0 (fun b => m (c, b)) (Proc.devRef .tc main_v9) = _
  exact before_v9 _
theorem pre_v31 (c : Dev nD) : V m c main_v31 = shapeCast _ (m ((c : Thread nD τ).loc main_arg1)) shapeCasts_S2000000x1x16_S2000000x16 := by
  show StableHlo.after hostOps0 (fun b => m (c, b)) (Proc.devRef .tc main_v31) = _
  exact before_v31 _
theorem pre_v33 (c : Dev nD) : V m c main_v33
    = shapeCast _ (shapeCast _ (m ((c : Thread nD τ).loc main_arg2)) shapeCasts_S1x16x1x1_S16) shapeCasts_S16_S1x16 := by
  show StableHlo.after hostOps0 (fun b => m (c, b)) (Proc.devRef .tc main_v33) = _
  exact before_v33 _
theorem pre_v34 (c : Dev nD) : V m c main_v34 = shapeCast _ (m ((c : Thread nD τ).loc main_arg3)) shapeCasts_S1_S1x1 := by
  show StableHlo.after hostOps0 (fun b => m (c, b)) (Proc.devRef .tc main_v34) = _
  exact before_v34 _
theorem pre_v35 (c : Dev nD) : V m c main_v35
    = shapeCast _ (Cert.Spec.gatherRow (Cert.Spec.concRow (m ((c : Thread nD τ).loc main_arg0))) (Cert.Spec.srcRow (m ((c : Thread nD τ).loc main_arg4))))
        shapeCasts_S2000000_S1x2000000 := by
  show StableHlo.after hostOps0 (fun b => m (c, b)) (Proc.devRef .tc main_v35) = _
  exact before_v35 _
theorem pre_v36 (c : Dev nD) : V m c main_v36
    = shapeCast _ (Cert.Spec.gatherRow (Cert.Spec.sizeRow (m ((c : Thread nD τ).loc main_arg0))) (Cert.Spec.srcRow (m ((c : Thread nD τ).loc main_arg4))))
        shapeCasts_S2000000_S1x2000000 := by
  show StableHlo.after hostOps0 (fun b => m (c, b)) (Proc.devRef .tc main_v36) = _
  exact before_v36 _
theorem pre_v37 (c : Dev nD) : V m c main_v37
    = shapeCast _ (Cert.Spec.gatherRow (Cert.Spec.sizeRow (m ((c : Thread nD τ).loc main_arg0))) (Cert.Spec.dstRow (m ((c : Thread nD τ).loc main_arg4))))
        shapeCasts_S2000000_S1x2000000 := by
  show StableHlo.after hostOps0 (fun b => m (c, b)) (Proc.devRef .tc main_v37) = _
  exact before_v37 _

/-- The last-write function respects equal arguments. -/
theorem lastWrite_congr {s s' d d' : (⟨S2000000, .i32⟩ : BufTy).Contents (Elt F)} {vs vs' vd vd' : (⟨S2000000, .f32⟩ : BufTy).Contents (Elt F)}
    {cn cn' pe pe' sz sz' : (⟨S100000, .f32⟩ : BufTy).Contents (Elt F)}
    (h1 : s = s') (h2 : d = d') (h3 : vs = vs') (h4 : vd = vd') (h5 : cn = cn') (h6 : pe = pe') (h7 : sz = sz') :
    Cert.Spec.lastWrite s d vs vd cn pe sz = Cert.Spec.lastWrite s' d' vs' vd' cn' pe' sz' := by
  subst h1 h2 h3 h4 h5 h6 h7; rfl

/-- After the run the first result holds the last-write function of the endpoint rows, the second and third arrays the
    region wrote (as rows), and the per-node columns, all as the region found or left them. -/
theorem tail_v83 (c : Dev nD) :
    Pipeline.afterTail₀ cfgs (dats m) 0 (V0 m) tailOps c main_v83
      = Cert.Spec.lastWrite (V m c main_v7) (V m c main_v9)
          (shapeCast _ ((dats m 0 c).arrAt 7 cfg0.N) shapeCasts_S1x2000000_S2000000)
          (shapeCast _ ((dats m 0 c).arrAt 8 cfg0.N) shapeCasts_S1x2000000_S2000000)
          (V m c main_v1) (V m c main_v3) (V m c main_v5) := by
  unfold Pipeline.afterTail₀
  exact (after_v83 _).trans (lastWrite_congr
    (Pipeline.withArrays_of_ne _ c _ _ main_v7 (fun w => by fin_cases w <;> decide))
    (Pipeline.withArrays_of_ne _ c _ _ main_v9 (fun w => by fin_cases w <;> decide))
    (congrArg (fun x => shapeCast _ x shapeCasts_S1x2000000_S2000000) (Pipeline.withArrays_arr spec0 launch0.win.arr_inj c _ _ 7))
    (congrArg (fun x => shapeCast _ x shapeCasts_S1x2000000_S2000000) (Pipeline.withArrays_arr spec0 launch0.win.arr_inj c _ _ 8))
    (Pipeline.withArrays_of_ne _ c _ _ main_v1 (fun w => by fin_cases w <;> decide))
    (Pipeline.withArrays_of_ne _ c _ _ main_v3 (fun w => by fin_cases w <;> decide))
    (Pipeline.withArrays_of_ne _ c _ _ main_v5 (fun w => by fin_cases w <;> decide)))

/-- And the second result the first array the region wrote, as a column. -/
theorem tail_v39 (c : Dev nD) :
    Pipeline.afterTail₀ cfgs (dats m) 0 (V0 m) tailOps c main_v39
      = shapeCast _ ((dats m 0 c).arrAt 6 cfg0.N) shapeCasts_S1x2000000_S2000000x1x1 := by
  unfold Pipeline.afterTail₀
  exact (after_v39 _).trans
    (congrArg (fun x => shapeCast _ x shapeCasts_S1x2000000_S2000000x1x1) (Pipeline.withArrays_arr spec0 launch0.win.arr_inj c _ _ 6))

end Cert.KernelIdeal.Hand

end
-- ==== Proof.KArrays.lean ====
/-
  What the three arrays the region writes hold after it, at the ideal instance, index by index.
  Grid point t writes columns 16000·t … 16000·t + 15999 of each [1, 2000000] array; the 125 points cover every column
  once. Column e of the first array is edge e's flow: the sum over the sixteen channels of weight times feature, plus
  the bias (the matrix unit's product of the weight row with the transposed feature block into a zero accumulator is
  that sum; the change of float format is the identity at the ideal instance). Column e of the second and third is
  the flow times the first scalar row's entry, divided by the second, resp. the third, row's entry.
-/
import proofs.«132385_j48275432407577_1_alg».proof.Proof.KFrameB
import proofs.«132385_j48275432407577_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The body's payloads at an index -/

theorem lhs_dot_0 (i : S1x16000.Idx) (q : dot_S1x16_S16x16000_S1x16000_1_0_0_1_n_n.contr.Idx) :
    (dot_S1x16_S16x16000_S1x16000_1_0_0_1_n_n.lhsIdx i q 0).val = (i 0).val := by
  unfold DotDims.lhsIdx
  rw [dif_neg (show ¬(0 : Fin S1x16.rank) ∈ dot_S1x16_S16x16000_S1x16000_1_0_0_1_n_n.lhsBatch by decide), dif_pos (show (0 : Fin S1x16.rank) ∈ dot_S1x16_S16x16000_S1x16000_1_0_0_1_n_n.lhsNonContracting by decide)]
  rfl
theorem lhs_dot_1 (i : S1x16000.Idx) (q : dot_S1x16_S16x16000_S1x16000_1_0_0_1_n_n.contr.Idx) :
    (dot_S1x16_S16x16000_S1x16000_1_0_0_1_n_n.lhsIdx i q 1).val = (q ⟨0, by decide⟩).val :=
  dot_S1x16_S16x16000_S1x16000_1_0_0_1_n_n.lhsIdx_val_of_single rfl i q
theorem rhs_dot_0 (i : S1x16000.Idx) (q : dot_S1x16_S16x16000_S1x16000_1_0_0_1_n_n.contr.Idx) :
    (dot_S1x16_S16x16000_S1x16000_1_0_0_1_n_n.rhsIdx i q 0).val = (q ⟨0, by decide⟩).val :=
  dot_S1x16_S16x16000_S1x16000_1_0_0_1_n_n.rhsIdx_val_of_single rfl i q
theorem rhs_dot_1 (i : S1x16000.Idx) (q : dot_S1x16_S16x16000_S1x16000_1_0_0_1_n_n.contr.Idx) :
    (dot_S1x16_S16x16000_S1x16000_1_0_0_1_n_n.rhsIdx i q 1).val = (i 1).val := by
  unfold DotDims.rhsIdx
  rw [dif_neg (show ¬(1 : Fin S16x16000.rank) ∈ dot_S1x16_S16x16000_S1x16000_1_0_0_1_n_n.rhsBatch by decide), dif_pos (show (1 : Fin S16x16000.rank) ∈ dot_S1x16_S16x16000_S1x16000_1_0_0_1_n_n.rhsNonContracting by decide)]
  rfl

/-- The [1,16] × [16,16000] product into a zero accumulator, at column q: the sum over the sixteen channels. -/
theorem dot_apply (w : FVec Ideal S1x16 .bf16) (xt : FVec Ideal S16x16000 .bf16) (p : Fin 1) (q : Fin 16000) :
    matmul (F := Ideal) dot_S1x16_S16x16000_S1x16000_1_0_0_1_n_n none w xt (constant S1x16000 .f32 0x00000000#32) (ix2 p q)
      = ∑ k : Fin 16, w (ix2 p k) * xt (ix2 k q) := by
  simp only [matmul]
  rw [Ideal.matmul_constant_zero_apply, ← Equiv.sum_comp (ValueIdx.contrEquiv1 dot_S1x16_S16x16000_S1x16000_1_0_0_1_n_n 16 rfl rfl).symm]
  refine Finset.sum_congr rfl fun k _ => ?_
  have hk := ValueIdx.contrEquiv1_symm_val dot_S1x16_S16x16000_S1x16000_1_0_0_1_n_n 16 rfl rfl k
  have el : dot_S1x16_S16x16000_S1x16000_1_0_0_1_n_n.lhsIdx (ix2 p q) ((ValueIdx.contrEquiv1 dot_S1x16_S16x16000_S1x16000_1_0_0_1_n_n 16 rfl rfl).symm k) = ix2 p k := funext fun a => Fin.ext (by
    match a with
    | ⟨0, _⟩ => exact lhs_dot_0 _ _
    | ⟨1, _⟩ => exact (lhs_dot_1 _ _).trans hk)
  have er : dot_S1x16_S16x16000_S1x16000_1_0_0_1_n_n.rhsIdx (ix2 p q) ((ValueIdx.contrEquiv1 dot_S1x16_S16x16000_S1x16000_1_0_0_1_n_n 16 rfl rfl).symm k) = ix2 k q := funext fun a => Fin.ext (by
    match a with
    | ⟨0, _⟩ => exact (rhs_dot_0 _ _).trans hk
    | ⟨1, _⟩ => exact rhs_dot_1 _ _)
  rw [el, er]

/-- The transposed feature block at (channel k, edge q) is the block at (q, k). -/
theorem transpose_block_apply (v : FVec Ideal S16000x16 .bf16) (k : Fin 16) (q : Fin 16000) :
    transpose S16x16000 [1, 0] v transposes_S16000x16_p1_0_S16x16000 (ix2 k q) = v (ix2 q k) :=
  transpose_apply [1, 0] v transposes_S16000x16_p1_0_S16x16000 (ix2 k q) (ix2 q k) (fun b => by
    match b with
    | ⟨0, _⟩ => rfl
    | ⟨1, _⟩ => rfl)

/-- The first payload at column q of the block: the channels' sum of weight times feature, plus the bias. -/
theorem pay1_apply (x0 : S16000x16.Idx → EReal) (x1 : S1x16.Idx → EReal) (x2 : S1x1.Idx → EReal) (p : Fin 1) (q : Fin 16000) :
    k0_pay1 (F := Ideal) x0 x1 x2 (ix2 p q)
      = (∑ k : Fin 16, x1 (ix2 p k) * x0 (ix2 q k)) + x2 (ix2 (0 : Fin 1) (0 : Fin 1)) := by
  unfold k0_pay1
  dsimp only
  rw [addf_apply, dot_apply, broadcast_apply]
  congr 1
  · refine Finset.sum_congr rfl fun k _ => ?_
    rw [transpose_block_apply, shapeCast_self, shapeCast_self]
    rfl
  · exact congrArg x2 (funext fun a => Fin.ext (by
      match a with
      | ⟨0, _⟩ => rfl
      | ⟨1, _⟩ => rfl))

/-- The same at any index of the block, its two coordinates read off. -/
theorem pay1_at (x0 : S16000x16.Idx → EReal) (x1 : S1x16.Idx → EReal) (x2 : S1x1.Idx → EReal) (j : S1x16000.Idx) :
    k0_pay1 (F := Ideal) x0 x1 x2 j
      = (∑ k : Fin 16, x1 (ix2 (⟨(j 0).val, idx2_lt0 j⟩ : Fin 1) k) * x0 (ix2 (⟨(j 1).val, idx2_lt1 j⟩ : Fin 16000) k))
          + x2 (ix2 (0 : Fin 1) (0 : Fin 1)) := by
  obtain ⟨p, q, rfl⟩ : ∃ (p : Fin 1) (q : Fin 16000), j = ix2 p q := ⟨j 0, j 1, eq_ix2 j⟩
  exact pay1_apply x0 x1 x2 p q

/-- The second payload: the first times the first scalar row, over the second. -/
theorem pay3_apply (x0 : S16000x16.Idx → EReal) (x1 : S1x16.Idx → EReal) (x2 : S1x1.Idx → EReal)
    (x3 x4 : S1x16000.Idx → EReal) (j : S1x16000.Idx) :
    k0_pay3 (F := Ideal) x0 x1 x2 x3 x4 j = Ideal.div (k0_pay1 (F := Ideal) x0 x1 x2 j * x3 j) (x4 j) := by
  unfold k0_pay3 k0_pay2
  dsimp only
  rw [divf_apply, mulf_apply, shapeCast_self, shapeCast_self]

/-- The third payload: the same product over the third scalar row. -/
theorem pay4_apply (x0 : S16000x16.Idx → EReal) (x1 : S1x16.Idx → EReal) (x2 : S1x1.Idx → EReal)
    (x3 x5 : S1x16000.Idx → EReal) (j : S1x16000.Idx) :
    k0_pay4 (F := Ideal) x0 x1 x2 x3 x5 j = Ideal.div (k0_pay1 (F := Ideal) x0 x1 x2 j * x3 j) (x5 j) := by
  unfold k0_pay4 k0_pay2
  dsimp only
  rw [divf_apply, mulf_apply, shapeCast_self, shapeCast_self]

/-! ## The windows' blocks and arrays, at their literal types -/

variable (m : (ℓ : Loc nD τ sig) → Buf (Elt Ideal) ℓ)

abbrev xblk (c : Dev nD) (t : Fin cfg0.N) : S16000x16.Idx → EReal := iblk m c 0 t
abbrev wblk (c : Dev nD) (t : Fin cfg0.N) : S1x16.Idx → EReal := iblk m c 1 t
abbrev bblk (c : Dev nD) (t : Fin cfg0.N) : S1x1.Idx → EReal := iblk m c 2 t
abbrev csblk (c : Dev nD) (t : Fin cfg0.N) : S1x16000.Idx → EReal := iblk m c 3 t
abbrev ssblk (c : Dev nD) (t : Fin cfg0.N) : S1x16000.Idx → EReal := iblk m c 4 t
abbrev sdblk (c : Dev nD) (t : Fin cfg0.N) : S1x16000.Idx → EReal := iblk m c 5 t
abbrev xarr (c : Dev nD) : S2000000x16.Idx → EReal := V m c main_v31
abbrev warr (c : Dev nD) : S1x16.Idx → EReal := V m c main_v33
abbrev barr (c : Dev nD) : S1x1.Idx → EReal := V m c main_v34
abbrev csarr (c : Dev nD) : S1x2000000.Idx → EReal := V m c main_v35
abbrev ssarr (c : Dev nD) : S1x2000000.Idx → EReal := V m c main_v36
abbrev sdarr (c : Dev nD) : S1x2000000.Idx → EReal := V m c main_v37

theorem hz : (![0, 0] : Fin 2 → Nat) = fun _ => 0 := funext fun a => by fin_cases a <;> rfl

/-- The printed index maps, decided once over the 125 grid points: the feature window moves down its rows with the
    point, the weight row and the bias stay, the six [1, 16000] windows move along their columns with the point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val
    ∧ win0_8.index t (0 : Fin 2) = 0 ∧ win0_8.index t (1 : Fin 2) = t.val :=
  (by decide +kernel : ∀ t : Fin grid0.N, _)

/-- The feature block at (q, k) is the feature array at row 16000·t + q. -/
theorem blk0_apply (c : Dev nD) (t : Fin cfg0.N) (q : Fin 16000) (k : Fin 16) (e : Fin 2000000) (he : e.val = t.val * 16000 + q.val) :
    xblk m c t (ix2 q k) = xarr m c (ix2 e k) := by
  show xarr m c (((cfg0.win 0).blk t).view.emb (ix2 q k)) = _
  refine congrArg (xarr m c) (funext fun a => Fin.ext ?_)
  obtain ⟨e0, e1, -⟩ := idx_facts t
  match a with
  | ⟨0, _⟩ => show win0_0.index t (0 : Fin 2) * 16000 + 1 * q.val = e.val; omega
  | ⟨1, _⟩ => show win0_0.index t (1 : Fin 2) * 16 + 1 * k.val = k.val; omega

/-- The weight block is the weight row. -/
theorem blk1_apply (c : Dev nD) (t : Fin cfg0.N) (p : Fin 1) (k : Fin 16) :
    wblk m c t (ix2 p k) = warr m c (ix2 (0 : Fin 1) k) := by
  show warr m c (((cfg0.win 1).blk t).view.emb (ix2 p k)) = _
  refine congrArg (warr m c) (funext fun a => Fin.ext ?_)
  obtain ⟨-, -, e0, e1, -⟩ := idx_facts t
  have hp : p.val < 1 := p.isLt
  match a with
  | ⟨0, _⟩ => show win0_1.index t (0 : Fin 2) * 1 + 1 * p.val = 0; omega
  | ⟨1, _⟩ => show win0_1.index t (1 : Fin 2) * 16 + 1 * k.val = k.val; omega

/-- The bias block is the bias. -/
theorem blk2_apply (c : Dev nD) (t : Fin cfg0.N) :
    bblk m c t (ix2 (0 : Fin 1) (0 : Fin 1)) = barr m c (ix2 (0 : Fin 1) (0 : Fin 1)) := by
  show barr m c (((cfg0.win 2).blk t).view.emb (ix2 (0 : Fin 1) (0 : Fin 1))) = _
  refine congrArg (barr m c) (funext fun a => Fin.ext ?_)
  obtain ⟨-, -, -, -, e0, e1, -⟩ := idx_facts t
  match a with
  | ⟨0, _⟩ => show win0_2.index t (0 : Fin 2) * 1 + 1 * 0 = 0; omega
  | ⟨1, _⟩ => show win0_2.index t (1 : Fin 2) * 1 + 1 * 0 = 0; omega

/-- The flow of the edge a block column stands for, from the three blocks. -/
theorem flow_blk (c : Dev nD) (t : Fin cfg0.N) (p : Fin 1) (q : Fin 16000) (e : Fin 2000000) (he : e.val = t.val * 16000 + q.val) :
    (∑ k : Fin 16, wblk m c t (ix2 p k) * xblk m c t (ix2 q k)) + bblk m c t (ix2 (0 : Fin 1) (0 : Fin 1))
      = Cert.Spec.flowAt (xarr m c) (warr m c) (barr m c) e := by
  unfold Cert.Spec.flowAt
  exact congrArg₂ (· + ·)
    (Finset.sum_congr rfl fun k _ => congrArg₂ (· * ·) (blk1_apply m c t p k) (blk0_apply m c t q k e he))
    (blk2_apply m c t)

/-! ## The three arrays -/

/-- The first array: the flow, column by column. -/
abbrev G6 (x : S2000000x16.Idx → EReal) (w : S1x16.Idx → EReal) (b : S1x1.Idx → EReal) : S1x2000000.Idx → EReal :=
  fun i => Cert.Spec.flowAt x w b ⟨(i 1).val, idx2_lt1 i⟩
/-- The second and third: the flow times a scalar row's entry over another's. -/
abbrev G7 (x : S2000000x16.Idx → EReal) (w : S1x16.Idx → EReal) (b : S1x1.Idx → EReal) (cs ss : S1x2000000.Idx → EReal) :
    S1x2000000.Idx → EReal :=
  fun i => Ideal.div (G6 x w b i * cs i) (ss i)

/-- An index of array 0's shape is in point t's block iff each coordinate is in the block's range on its axis. -/
theorem mem_blk6 (t : Fin cfg0.N) (i : S1x2000000.Idx) :
    i ∈ ((cfg0.win 6).blk t).view.set ↔ ∀ a : Fin 2, win0_6.index t a * S1x16000.size a ≤ (i a).val ∧ (i a).val < win0_6.index t a * S1x16000.size a + S1x16000.size a := by
  show i ∈ ((View.whole main_v38_0).slice (win0_6.rect t)).set ↔ _
  rw [View.set_slice_whole, Rect.mem_set_unit]
  exact Iff.rfl

/-- Every column is in some point's block: the point is the column over 16000. -/
theorem cover6 (i : S1x2000000.Idx) : ∃ t : Fin cfg0.N, (cfg0.win 6).flush t = true ∧ i ∈ ((cfg0.win 6).blk t).view.set := by
  have hi0 : (i 0).val < 1 := (i 0).isLt
  have hi1 : (i 1).val < 2000000 := (i 1).isLt
  obtain ⟨t, ht⟩ : ∃ t : Fin cfg0.N, t.val = (i 1).val / 16000 :=
    ⟨⟨(i 1).val / 16000, by show (i 1).val / 16000 < 125; omega⟩, rfl⟩
  refine ⟨t, flush0_6 t, ?_⟩
  rw [mem_blk6]
  obtain ⟨-, -, -, -, -, -, -, -, -, -, -, -, e60, e61, e70, e71, e80, e81⟩ := idx_facts t
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 16000 ≤ (i 1).val ∧ (i 1).val < win0_6.index t (1 : Fin 2) * 16000 + 16000; omega

/-- A column of point t's block of array 0 is column 16000·t + (the column inside the block) of the array. -/
theorem emb6_val (t : Fin cfg0.N) (j : S1x16000.Idx) :
    ((((cfg0.win 6).blk t).view.emb j : S1x2000000.Idx) 1).val = t.val * 16000 + (j 1).val := by
  obtain ⟨-, -, -, -, -, -, -, -, -, -, -, -, e60, e61, e70, e71, e80, e81⟩ := idx_facts t
  show win0_6.index t (1 : Fin 2) * 16000 + 1 * (j 1).val = _
  omega

/-- An index of array 1's shape is in point t's block iff each coordinate is in the block's range on its axis. -/
theorem mem_blk7 (t : Fin cfg0.N) (i : S1x2000000.Idx) :
    i ∈ ((cfg0.win 7).blk t).view.set ↔ ∀ a : Fin 2, win0_7.index t a * S1x16000.size a ≤ (i a).val ∧ (i a).val < win0_7.index t a * S1x16000.size a + S1x16000.size a := by
  show i ∈ ((View.whole main_v38_1).slice (win0_7.rect t)).set ↔ _
  rw [View.set_slice_whole, Rect.mem_set_unit]
  exact Iff.rfl

/-- Every column is in some point's block: the point is the column over 16000. -/
theorem cover7 (i : S1x2000000.Idx) : ∃ t : Fin cfg0.N, (cfg0.win 7).flush t = true ∧ i ∈ ((cfg0.win 7).blk t).view.set := by
  have hi0 : (i 0).val < 1 := (i 0).isLt
  have hi1 : (i 1).val < 2000000 := (i 1).isLt
  obtain ⟨t, ht⟩ : ∃ t : Fin cfg0.N, t.val = (i 1).val / 16000 :=
    ⟨⟨(i 1).val / 16000, by show (i 1).val / 16000 < 125; omega⟩, rfl⟩
  refine ⟨t, flush0_7 t, ?_⟩
  rw [mem_blk7]
  obtain ⟨-, -, -, -, -, -, -, -, -, -, -, -, e60, e61, e70, e71, e80, e81⟩ := idx_facts t
  intro a
  match a with
  | ⟨0, _⟩ => show win0_7.index t (0 : Fin 2) * 1 ≤ (i 0).val ∧ (i 0).val < win0_7.index t (0 : Fin 2) * 1 + 1; omega
  | ⟨1, _⟩ => show win0_7.index t (1 : Fin 2) * 16000 ≤ (i 1).val ∧ (i 1).val < win0_7.index t (1 : Fin 2) * 16000 + 16000; omega

/-- A column of point t's block of array 1 is column 16000·t + (the column inside the block) of the array. -/
theorem emb7_val (t : Fin cfg0.N) (j : S1x16000.Idx) :
    ((((cfg0.win 7).blk t).view.emb j : S1x2000000.Idx) 1).val = t.val * 16000 + (j 1).val := by
  obtain ⟨-, -, -, -, -, -, -, -, -, -, -, -, e60, e61, e70, e71, e80, e81⟩ := idx_facts t
  show win0_7.index t (1 : Fin 2) * 16000 + 1 * (j 1).val = _
  omega

/-- An index of array 2's shape is in point t's block iff each coordinate is in the block's range on its axis. -/
theorem mem_blk8 (t : Fin cfg0.N) (i : S1x2000000.Idx) :
    i ∈ ((cfg0.win 8).blk t).view.set ↔ ∀ a : Fin 2, win0_8.index t a * S1x16000.size a ≤ (i a).val ∧ (i a).val < win0_8.index t a * S1x16000.size a + S1x16000.size a := by
  show i ∈ ((View.whole main_v38_2).slice (win0_8.rect t)).set ↔ _
  rw [View.set_slice_whole, Rect.mem_set_unit]
  exact Iff.rfl

/-- Every column is in some point's block: the point is the column over 16000. -/
theorem cover8 (i : S1x2000000.Idx) : ∃ t : Fin cfg0.N, (cfg0.win 8).flush t = true ∧ i ∈ ((cfg0.win 8).blk t).view.set := by
  have hi0 : (i 0).val < 1 := (i 0).isLt
  have hi1 : (i 1).val < 2000000 := (i 1).isLt
  obtain ⟨t, ht⟩ : ∃ t : Fin cfg0.N, t.val = (i 1).val / 16000 :=
    ⟨⟨(i 1).val / 16000, by show (i 1).val / 16000 < 125; omega⟩, rfl⟩
  refine ⟨t, flush0_8 t, ?_⟩
  rw [mem_blk8]
  obtain ⟨-, -, -, -, -, -, -, -, -, -, -, -, e60, e61, e70, e71, e80, e81⟩ := idx_facts t
  intro a
  match a with
  | ⟨0, _⟩ => show win0_8.index t (0 : Fin 2) * 1 ≤ (i 0).val ∧ (i 0).val < win0_8.index t (0 : Fin 2) * 1 + 1; omega
  | ⟨1, _⟩ => show win0_8.index t (1 : Fin 2) * 16000 ≤ (i 1).val ∧ (i 1).val < win0_8.index t (1 : Fin 2) * 16000 + 16000; omega

/-- A column of point t's block of array 2 is column 16000·t + (the column inside the block) of the array. -/
theorem emb8_val (t : Fin cfg0.N) (j : S1x16000.Idx) :
    ((((cfg0.win 8).blk t).view.emb j : S1x2000000.Idx) 1).val = t.val * 16000 + (j 1).val := by
  obtain ⟨-, -, -, -, -, -, -, -, -, -, -, -, e60, e61, e70, e71, e80, e81⟩ := idx_facts t
  show win0_8.index t (1 : Fin 2) * 16000 + 1 * (j 1).val = _
  omega

/-- Scalar-row window 3's block at a column is its row at the second output block's column: the windows move together. -/
theorem blk3_apply (c : Dev nD) (t : Fin cfg0.N) (j : S1x16000.Idx) :
    csblk m c t j = csarr m c (((cfg0.win 7).blk t).view.emb j) := by
  obtain ⟨-, -, -, -, -, -, e30, e31, e40, e41, e50, e51, e60, e61, e70, e71, e80, e81⟩ := idx_facts t
  show csarr m c (((cfg0.win 3).blk t).view.emb j) = _
  refine congrArg (csarr m c) (funext fun a => Fin.ext ?_)
  match a with
  | ⟨0, _⟩ => show win0_3.index t (0 : Fin 2) * 1 + 1 * (j 0).val = win0_7.index t (0 : Fin 2) * 1 + 1 * (j 0).val; omega
  | ⟨1, _⟩ => show win0_3.index t (1 : Fin 2) * 16000 + 1 * (j 1).val = win0_7.index t (1 : Fin 2) * 16000 + 1 * (j 1).val; omega

/-- Scalar-row window 4's block at a column is its row at the second output block's column: the windows move together. -/
theorem blk4_apply (c : Dev nD) (t : Fin cfg0.N) (j : S1x16000.Idx) :
    ssblk m c t j = ssarr m c (((cfg0.win 7).blk t).view.emb j) := by
  obtain ⟨-, -, -, -, -, -, e30, e31, e40, e41, e50, e51, e60, e61, e70, e71, e80, e81⟩ := idx_facts t
  show ssarr m c (((cfg0.win 4).blk t).view.emb j) = _
  refine congrArg (ssarr m c) (funext fun a => Fin.ext ?_)
  match a with
  | ⟨0, _⟩ => show win0_4.index t (0 : Fin 2) * 1 + 1 * (j 0).val = win0_7.index t (0 : Fin 2) * 1 + 1 * (j 0).val; omega
  | ⟨1, _⟩ => show win0_4.index t (1 : Fin 2) * 16000 + 1 * (j 1).val = win0_7.index t (1 : Fin 2) * 16000 + 1 * (j 1).val; omega

/-- Scalar-row window 5's block at a column is its row at the second output block's column: the windows move together. -/
theorem blk5_apply (c : Dev nD) (t : Fin cfg0.N) (j : S1x16000.Idx) :
    sdblk m c t j = sdarr m c (((cfg0.win 7).blk t).view.emb j) := by
  obtain ⟨-, -, -, -, -, -, e30, e31, e40, e41, e50, e51, e60, e61, e70, e71, e80, e81⟩ := idx_facts t
  show sdarr m c (((cfg0.win 5).blk t).view.emb j) = _
  refine congrArg (sdarr m c) (funext fun a => Fin.ext ?_)
  match a with
  | ⟨0, _⟩ => show win0_5.index t (0 : Fin 2) * 1 + 1 * (j 0).val = win0_7.index t (0 : Fin 2) * 1 + 1 * (j 0).val; omega
  | ⟨1, _⟩ => show win0_5.index t (1 : Fin 2) * 16000 + 1 * (j 1).val = win0_7.index t (1 : Fin 2) * 16000 + 1 * (j 1).val; omega

/-- The third output window's block sits over the same columns as the second's. -/
theorem emb8_eq (t : Fin cfg0.N) (j : S1x16000.Idx) :
    (((cfg0.win 8).blk t).view.emb j : S1x2000000.Idx) = ((cfg0.win 7).blk t).view.emb j := by
  obtain ⟨-, -, -, -, -, -, -, -, -, -, -, -, e60, e61, e70, e71, e80, e81⟩ := idx_facts t
  funext a; apply Fin.ext
  match a with
  | ⟨0, _⟩ => show win0_8.index t (0 : Fin 2) * 1 + 1 * (j 0).val = win0_7.index t (0 : Fin 2) * 1 + 1 * (j 0).val; omega
  | ⟨1, _⟩ => show win0_8.index t (1 : Fin 2) * 16000 + 1 * (j 1).val = win0_7.index t (1 : Fin 2) * 16000 + 1 * (j 1).val; omega

/-- The first payload of point t's blocks, at a column, is the flow of the edge the column stands for. -/
theorem pay1_blk (c : Dev nD) (t : Fin cfg0.N) (j : S1x16000.Idx) (e : Fin 2000000) (he : e.val = t.val * 16000 + (j 1).val) :
    k0_pay1 (F := Ideal) (xblk m c t) (wblk m c t) (bblk m c t) j = Cert.Spec.flowAt (xarr m c) (warr m c) (barr m c) e :=
  (pay1_at (xblk m c t) (wblk m c t) (bblk m c t) j).trans
    (flow_blk m c t ⟨(j 0).val, idx2_lt0 j⟩ ⟨(j 1).val, idx2_lt1 j⟩ e he)

set_option maxHeartbeats 1000000 in
/-- What point t writes back of the first array is block t of the flow. -/
theorem flushed6_eq (c : Dev nD) (t : Fin cfg0.N) :
    (dats m 0 c).flushed 6 t = ((cfg0.win 6).blk t).view.read (Elt Ideal) (G6 (xarr m c) (warr m c) (barr m c)) := by
  show (cfg0.win 6).cut (grid0.coords t) ((dats m 0 c).after 6 t) = _
  rw [after0_6]
  unfold out0_6
  rw [View.canon_unit_zero hz]
  simp only [View.ld_unit_zero (S := S16000x16) hz, View.ld_unit_zero (S := S1x16) hz, View.ld_unit_zero (S := S1x1) hz]
  funext j
  exact pay1_blk m c t j _ (emb6_val t j)

set_option maxHeartbeats 1000000 in
/-- What point t writes back of the second array is block t of flow · cs / ss. -/
theorem flushed7_eq (c : Dev nD) (t : Fin cfg0.N) :
    (dats m 0 c).flushed 7 t = ((cfg0.win 7).blk t).view.read (Elt Ideal)
      (G7 (xarr m c) (warr m c) (barr m c) (csarr m c) (ssarr m c)) := by
  show (cfg0.win 7).cut (grid0.coords t) ((dats m 0 c).after 7 t) = _
  rw [after0_7]
  unfold out0_7
  rw [View.canon_unit_zero hz]
  simp only [View.ld_unit_zero (S := S16000x16) hz, View.ld_unit_zero (S := S1x16) hz, View.ld_unit_zero (S := S1x1) hz,
    View.ld_unit_zero (S := S1x16000) hz]
  funext j
  refine (pay3_apply (xblk m c t) (wblk m c t) (bblk m c t) (csblk m c t) (ssblk m c t) j).trans ?_
  rw [blk3_apply m c t j, blk4_apply m c t j, pay1_blk m c t j _ (emb7_val t j)]
  rfl

set_option maxHeartbeats 1000000 in
/-- What point t writes back of the third array is block t of flow · cs / sd. -/
theorem flushed8_eq (c : Dev nD) (t : Fin cfg0.N) :
    (dats m 0 c).flushed 8 t = ((cfg0.win 8).blk t).view.read (Elt Ideal)
      (G7 (xarr m c) (warr m c) (barr m c) (csarr m c) (sdarr m c)) := by
  show (cfg0.win 8).cut (grid0.coords t) ((dats m 0 c).after 8 t) = _
  rw [after0_8]
  unfold out0_8
  rw [View.canon_unit_zero hz]
  simp only [View.ld_unit_zero (S := S16000x16) hz, View.ld_unit_zero (S := S1x16) hz, View.ld_unit_zero (S := S1x1) hz,
    View.ld_unit_zero (S := S1x16000) hz]
  funext j
  refine (pay4_apply (xblk m c t) (wblk m c t) (bblk m c t) (csblk m c t) (sdblk m c t) j).trans ?_
  rw [blk3_apply m c t j, blk5_apply m c t j, pay1_blk m c t j _ (emb7_val t j)]
  show _ = G7 (xarr m c) (warr m c) (barr m c) (csarr m c) (sdarr m c) (((cfg0.win 8).blk t).view.emb j)
  rw [emb8_eq t j]
  rfl

/-- The three arrays after the run. -/
theorem final6 (c : Dev nD) : (dats m 0 c).arrAt 6 cfg0.N = G6 (xarr m c) (warr m c) (barr m c) :=
  (dats m 0 c).arrAt_eq_of_cover 6 _ (fun t _ => flushed6_eq m c t) cover6
theorem final7 (c : Dev nD) : (dats m 0 c).arrAt 7 cfg0.N
    = G7 (xarr m c) (warr m c) (barr m c) (csarr m c) (ssarr m c) :=
  (dats m 0 c).arrAt_eq_of_cover 7 _ (fun t _ => flushed7_eq m c t) cover7
theorem final8 (c : Dev nD) : (dats m 0 c).arrAt 8 cfg0.N
    = G7 (xarr m c) (warr m c) (barr m c) (csarr m c) (sdarr m c) :=
  (dats m 0 c).arrAt_eq_of_cover 8 _ (fun t _ => flushed8_eq m c t) cover8

end Cert.KernelIdeal.Hand

end
-- ==== Proof.RefRun.lean ====
/-
  The reference program's run, read back one host operation at a time: what each of its two results holds,
  as a function of the argument arrays.
-/
import proofs.«132385_j48275432407577_1_alg».proof.Defs
import proofs.«132385_j48275432407577_1_alg».proof.Proof.Gen.ReferenceIdeal.Run
import proofs.«132385_j48275432407577_1_alg».proof.Proof.Gen.ReferenceIdeal.Read

noncomputable section

namespace Cert.ReferenceIdeal.RefValue

open Idealize.ShloMosaic Idealize.ShloMosaic.TcCoe Idealize.SL.Sem

end Cert.ReferenceIdeal.RefValue

end
-- ==== Proof.RefValue.lean ====
/-
  The reference program's two results, read: the first is the shared last-write function of the reference's own
  per-edge rows; the rows themselves, and the second result, at an index.
-/
import proofs.«132385_j48275432407577_1_alg».proof.Proof.RefRun
import proofs.«132385_j48275432407577_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.ReferenceIdeal.Value
open Idealize.ShloMosaic Idealize.ShloMosaic.TcCoe Idealize.SL.Sem Idealize.ShloMosaic.ValueIdx

/-! ### The shared function's parts, one at a time

Operations %49 … %89 of the reference are the operations of `Cert.Spec.lastWrite`, in the same order and with the same
constants; each lemma below reads one named part of it off the reference's stages. The two sides name the shapes and the
gather/scatter records through different programs' copies of the same literals, so each equation holds by unfolding. -/

section Stages

variable {F : FTy → Type} [FloatOps F]

/-- %50: the two endpoint rows, one after the other. -/
theorem ids_eq (x4 : (⟨S2x2000000, .i32⟩ : BufTy).Contents (Elt F)) :
    val_main_v50 (F := F) x4 = Cert.Spec.ids (F := F) (val_main_v13 x4) (val_main_v15 x4) := by
  unfold val_main_v50 Cert.Spec.ids
  rfl

/-- %66 … %71: the joined ids as an index column, a negative id wrapped by the node count. -/
theorem idsCol_eq (x4 : (⟨S2x2000000, .i32⟩ : BufTy).Contents (Elt F)) :
    val_main_v71 (F := F) x4 = Cert.Spec.idsCol (F := F) (val_main_v13 x4) (val_main_v15 x4) := by
  unfold val_main_v71 val_main_v70 val_main_v69 val_main_v68 val_main_c_15 val_main_v67 val_main_v66 val_main_c_14
    Cert.Spec.idsCol
  rewrite [ids_eq x4]
  rfl

/-- %77 … %82: the same index column, computed a second time. -/
theorem idsCol_eq' (x4 : (⟨S2x2000000, .i32⟩ : BufTy).Contents (Elt F)) :
    val_main_v82 (F := F) x4 = Cert.Spec.idsCol (F := F) (val_main_v13 x4) (val_main_v15 x4) := by
  unfold val_main_v82 val_main_v81 val_main_v80 val_main_v79 val_main_c_18 val_main_v78 val_main_v77 val_main_c_17
    Cert.Spec.idsCol
  rewrite [ids_eq x4]
  rfl

/-- %49, %52 … %60: the writes' numbers, 2i and 2i+1 for edge i, -1 on a self-loop. -/
theorem orders_eq (x4 : (⟨S2x2000000, .i32⟩ : BufTy).Contents (Elt F)) :
    val_main_v60 (F := F) x4 = Cert.Spec.orders (F := F) (val_main_v13 x4) (val_main_v15 x4) := by
  unfold val_main_v60 val_main_v59 val_main_call1_v1 val_main_call1_v0 val_main_c_11 val_main_v58 val_main_v57
    val_main_c_10 val_main_v56 val_main_v55 val_main_c_9 val_main_v54 val_main_call0_v1 val_main_call0_v0 val_main_c_8
    val_main_v53 val_main_v52 val_main_c_7 val_main_v49 val_main_v16 Cert.Spec.orders
  rfl

/-- %61 … %63: per node, the largest number of a write to it. -/
theorem lastOrder_eq (x4 : (⟨S2x2000000, .i32⟩ : BufTy).Contents (Elt F)) :
    val_main_v63 (F := F) x4 = Cert.Spec.lastOrder (F := F) (val_main_v13 x4) (val_main_v15 x4) := by
  unfold val_main_v63 val_main_v62 val_main_v61 val_main_c_12 Cert.Spec.lastOrder
  rewrite [orders_eq x4, ids_eq x4]
  rfl

/-- %64, %65, %72 … %74: the writes that count. -/
theorem kept_eq (x4 : (⟨S2x2000000, .i32⟩ : BufTy).Contents (Elt F)) :
    val_main_v74 (F := F) x4 = Cert.Spec.kept (F := F) (val_main_v13 x4) (val_main_v15 x4) := by
  unfold val_main_v74 val_main_v73 val_main_v72 val_main_v65 val_main_v64 val_main_c_13 Cert.Spec.kept
  rewrite [orders_eq x4, lastOrder_eq x4, idsCol_eq x4]
  rfl

/-- %51, %75, %76, %83: per node, the value its last write left. -/
theorem written_eq (x0 : (⟨S100000x8x3, .f32⟩ : BufTy).Contents (Elt F)) (x1 : (⟨S2000000x1x16, .f32⟩ : BufTy).Contents (Elt F))
    (x2 : (⟨S1x16x1x1, .f32⟩ : BufTy).Contents (Elt F)) (x3 : (⟨S1, .f32⟩ : BufTy).Contents (Elt F))
    (x4 : (⟨S2x2000000, .i32⟩ : BufTy).Contents (Elt F)) :
    val_main_v83 (F := F) x0 x1 x2 x3 x4
      = Cert.Spec.written (F := F) (val_main_v13 x4) (val_main_v15 x4)
          (val_main_v32 x0 x1 x2 x3 x4) (val_main_v48 x0 x1 x2 x3 x4) := by
  unfold val_main_v83 val_main_v76 val_main_call2_v1 val_main_call2_v0 val_main_cst_16 val_main_v75 val_main_cst
    val_main_v51 Cert.Spec.written
  rewrite [idsCol_eq' x4, kept_eq x4]
  rfl

end Stages

/-! ### The indices the reshapes, broadcasts and the contraction read, at an edge -/

/-- The reshape %11 reads edge `e` at `(e, 0, 0)`. -/
theorem idx11 (e : Fin 2000000) : idx_main_v11 (ix1 e) = ix3 e (0 : Fin 1) (0 : Fin 1) :=
  funext fun a => Fin.ext (by
    match a with
    | ⟨0, _⟩ => show e.val / 1 = e.val; exact Nat.div_one _
    | ⟨1, _⟩ => rfl
    | ⟨2, _⟩ => rfl)

/-- The contraction %7 reads the features at `(e, 0, k)`. -/
theorem lidx7 (e : Fin 2000000) (k : Fin 16) :
    lidx_main_v7 (ix3 e (0 : Fin 1) (0 : Fin 1)) k = ix3 e (0 : Fin 1) k :=
  funext fun a => Fin.ext (by
    match a with
    | ⟨0, _⟩ => rfl
    | ⟨1, _⟩ => rfl
    | ⟨2, _⟩ => rfl)

/-- The contraction %7 reads the weights' row at `(0, k)`. -/
theorem ridx7 (e : Fin 2000000) (k : Fin 16) :
    ridx_main_v7 (ix3 e (0 : Fin 1) (0 : Fin 1)) k = ix2 (0 : Fin 1) k :=
  funext fun a => Fin.ext (by
    match a with
    | ⟨0, _⟩ => rfl
    | ⟨1, _⟩ => rfl)

/-- The reshape %6 reads the weights at `(0, k, 0, 0)`. -/
theorem idx6 (k : Fin 16) : idx_main_v6 (ix2 (0 : Fin 1) k) = ix4 (0 : Fin 1) k (0 : Fin 1) (0 : Fin 1) :=
  funext fun a => Fin.ext (by
    match a with
    | ⟨0, _⟩ => rfl
    | ⟨1, _⟩ =>
      have hk : k.val < 16 := k.isLt
      show (0 * 16 + k.val) / 1 % 16 = k.val
      omega
    | ⟨2, _⟩ => rfl
    | ⟨3, _⟩ => rfl)

/-- The broadcast %9 reads the bias's one entry. -/
theorem idx9 (i : S2000000x1x1.Idx) : idx_main_v9 i = ix3 (0 : Fin 1) (0 : Fin 1) (0 : Fin 1) :=
  funext fun a => Fin.ext (by
    match a with
    | ⟨0, _⟩ => rfl
    | ⟨1, _⟩ => rfl
    | ⟨2, _⟩ => rfl)

/-- The broadcast %8 reads the bias's one entry. -/
theorem idx8 (i : S1x1x1.Idx) : idx_main_v8 i = ix1 (0 : Fin 1) :=
  funext fun a => Fin.ext (by
    match a with
    | ⟨0, _⟩ => rfl)

/-- The reference's first result is the shared last-write function of its endpoint rows (%13, %15), its two per-edge
    value rows (%32, %48) and the three per-node rows (%1, %3, %5): operations %49 … %89 are that function's. -/
theorem out0_eq {F : FTy → Type} [FloatOps F] (m : (ℓ : Loc nD τ sig) → Buf (Elt F) ℓ) (c : Dev nD) :
    res_out0 (F := F) m c
      = Cert.Spec.lastWrite (F := F)
          (val_main_v13 (m ((c.tc : Thread nD τ).loc main_arg4))) (val_main_v15 (m ((c.tc : Thread nD τ).loc main_arg4)))
          (val_main_v32 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (val_main_v48 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
          (val_main_v1 (m ((c.tc : Thread nD τ).loc main_arg0))) (val_main_v3 (m ((c.tc : Thread nD τ).loc main_arg0))) (val_main_v5 (m ((c.tc : Thread nD τ).loc main_arg0))) := by
  refine (val_main_v89_eq (F := F) m c).trans ?_
  unfold val_main_v89 val_main_v88 val_main_v87 val_main_v86 val_main_v85 val_main_v84 val_main_cst_19 Cert.Spec.lastWrite
  rewrite [written_eq]
  rfl

/-- Edge `e`'s value in the reference: its sixteen features' product with the weights, plus the bias. -/
theorem val_apply (a1 : (⟨S2000000x1x16, .f32⟩ : BufTy).Contents (Elt Ideal)) (a2 : (⟨S1x16x1x1, .f32⟩ : BufTy).Contents (Elt Ideal))
    (a3 : (⟨S1, .f32⟩ : BufTy).Contents (Elt Ideal)) (e : Fin 2000000) :
    val_main_v11 (F := Ideal) a1 a2 a3 (ix1 e)
      = (∑ k : Fin 16, a1 (ix3 e (0 : Fin 1) k) * a2 (ix4 (0 : Fin 1) k (0 : Fin 1) (0 : Fin 1))) + a3 (ix1 (0 : Fin 1)) := by
  rw [val_main_v11_apply, val_main_v10_apply, val_main_v7_apply, val_main_v9_apply, val_main_v8_apply, idx11 e, idx9, idx8,
    Ideal.addf_def]
  refine congrArg (fun s => s + a3 (ix1 (0 : Fin 1))) (Finset.sum_congr rfl fun k _ => ?_)
  rw [lidx7 e k, ridx7 e k, val_main_v6_apply, idx6 k]

/-- The value written to edge `e`'s source: its value times the source's gathered concentration, over its gathered size. -/
theorem vsrc_apply (a0 : (⟨S100000x8x3, .f32⟩ : BufTy).Contents (Elt Ideal)) (a1 : (⟨S2000000x1x16, .f32⟩ : BufTy).Contents (Elt Ideal))
    (a2 : (⟨S1x16x1x1, .f32⟩ : BufTy).Contents (Elt Ideal)) (a3 : (⟨S1, .f32⟩ : BufTy).Contents (Elt Ideal))
    (a4 : (⟨S2x2000000, .i32⟩ : BufTy).Contents (Elt Ideal)) (e : Fin 2000000) :
    val_main_v32 (F := Ideal) a0 a1 a2 a3 a4 (ix1 e)
      = Ideal.div (val_main_v11 (F := Ideal) a1 a2 a3 (ix1 e) * val_main_v23 (F := Ideal) a0 a4 (ix1 e)) (val_main_v31 (F := Ideal) a0 a4 (ix1 e)) := by
  rw [val_main_v32_apply, val_main_v24_apply, Ideal.hostDivf_def, Ideal.mulf_def]

/-- The value written to edge `e`'s target: the same product over the target's gathered size. -/
theorem vdst_apply (a0 : (⟨S100000x8x3, .f32⟩ : BufTy).Contents (Elt Ideal)) (a1 : (⟨S2000000x1x16, .f32⟩ : BufTy).Contents (Elt Ideal))
    (a2 : (⟨S1x16x1x1, .f32⟩ : BufTy).Contents (Elt Ideal)) (a3 : (⟨S1, .f32⟩ : BufTy).Contents (Elt Ideal))
    (a4 : (⟨S2x2000000, .i32⟩ : BufTy).Contents (Elt Ideal)) (e : Fin 2000000) :
    val_main_v48 (F := Ideal) a0 a1 a2 a3 a4 (ix1 e)
      = Ideal.div (val_main_v11 (F := Ideal) a1 a2 a3 (ix1 e) * val_main_v39 (F := Ideal) a0 a4 (ix1 e)) (val_main_v47 (F := Ideal) a0 a4 (ix1 e)) := by
  rw [val_main_v48_apply, val_main_v40_apply, Ideal.hostDivf_def, Ideal.mulf_def]

/-- The second result at edge `e` is the edge's value. -/
theorem out1_apply (a1 : (⟨S2000000x1x16, .f32⟩ : BufTy).Contents (Elt Ideal)) (a2 : (⟨S1x16x1x1, .f32⟩ : BufTy).Contents (Elt Ideal))
    (a3 : (⟨S1, .f32⟩ : BufTy).Contents (Elt Ideal)) (e : Fin 2000000) :
    val_main_v10 (F := Ideal) a1 a2 a3 (ix3 e (0 : Fin 1) (0 : Fin 1)) = val_main_v11 (F := Ideal) a1 a2 a3 (ix1 e) := by
  rw [val_main_v11_apply, idx11 e]

end Cert.ReferenceIdeal.RefValue

end
-- ==== Proof.Bridge.lean ====
/-
  The two idealized programs compute the same two results.
  Edge e's flow is, in the kernel, the sum over the sixteen channels of weight times feature plus the bias, read off
  the reshaped arguments; in the reference the sum of feature times weight plus the bias: multiplication of extended
  reals commutes. The values written to an edge's endpoints are, in both, the flow times the source's gathered
  concentration over the gathered size of the source, resp. of the target, the gathers being one function of the
  arguments in both programs. Everything after that is the shared last-write function. No law here needs finiteness.
-/
import proofs.«132385_j48275432407577_1_alg».proof.Defs
import proofs.«132385_j48275432407577_1_alg».proof.Proof.KArrays
import proofs.«132385_j48275432407577_1_alg».proof.Proof.KHost
import proofs.«132385_j48275432407577_1_alg».proof.Proof.RefValue

set_option maxRecDepth 16384

noncomputable section

namespace Cert.Proof.Bridge

open Cert.KernelIdeal Cert.KernelIdeal.Gen Cert.KernelIdeal.Hand
open Idealize.ShloMosaic Idealize.ShloMosaic.TcCoe Idealize.ShloMosaic.ValueIdx
open Idealize.SL Idealize.SL.Sem

/-! ## The reference's stages are the shared prefix functions -/

section Stages
variable {F : FTy → Type} [FloatOps F]
variable (a0 : (⟨S100000x8x3, .f32⟩ : BufTy).Contents (Elt F)) (a4 : (⟨S2x2000000, .i32⟩ : BufTy).Contents (Elt F))

theorem ref_conc : Cert.ReferenceIdeal.Read.val_main_v1 (F := F) a0 = Cert.Spec.concRow a0 := rfl
theorem ref_people : Cert.ReferenceIdeal.Read.val_main_v3 (F := F) a0 = Cert.Spec.peopleRow a0 := rfl
theorem ref_size : Cert.ReferenceIdeal.Read.val_main_v5 (F := F) a0 = Cert.Spec.sizeRow a0 := rfl
theorem ref_src : Cert.ReferenceIdeal.Read.val_main_v13 (F := F) a4 = Cert.Spec.srcRow a4 := rfl
theorem ref_dst : Cert.ReferenceIdeal.Read.val_main_v15 (F := F) a4 = Cert.Spec.dstRow a4 := rfl
theorem ref_g23 : Cert.ReferenceIdeal.Read.val_main_v23 (F := F) a0 a4 = Cert.Spec.gatherRow (Cert.Spec.concRow a0) (Cert.Spec.srcRow a4) := rfl
theorem ref_g31 : Cert.ReferenceIdeal.Read.val_main_v31 (F := F) a0 a4 = Cert.Spec.gatherRow (Cert.Spec.sizeRow a0) (Cert.Spec.srcRow a4) := rfl
theorem ref_g39 : Cert.ReferenceIdeal.Read.val_main_v39 (F := F) a0 a4 = Cert.Spec.gatherRow (Cert.Spec.concRow a0) (Cert.Spec.srcRow a4) := rfl
theorem ref_g47 : Cert.ReferenceIdeal.Read.val_main_v47 (F := F) a0 a4 = Cert.Spec.gatherRow (Cert.Spec.sizeRow a0) (Cert.Spec.dstRow a4) := rfl

end Stages

/-! ## The arrays the region reads, at an index -/

variable (m : (ℓ : Loc nD τ sig) → Buf (Elt Ideal) ℓ) (c : Dev nD)

/-- The feature array at (e, k) is the feature argument at (e, 0, k). -/
theorem x_at (e : Fin 2000000) (k : Fin 16) :
    xarr m c (ix2 e k) = (m ((c : Thread nD τ).loc main_arg1) : S2000000x1x16.Idx → EReal) (ix3 e (0 : Fin 1) k) :=
  (congrFun (pre_v31 m c) (ix2 e k)).trans
    (shapeCast_apply _ shapeCasts_S2000000x1x16_S2000000x16 (ix2 e k) (ix3 e (0 : Fin 1) k)
      (by rewrite [Shape.rowMajor_val_three, Shape.rowMajor_val_two]
          show (e.val * 1 + 0) * 16 + k.val = e.val * 16 + k.val; omega))

/-- The weight row at (0, k) is the weight argument at (0, k, 0, 0). -/
theorem w_at (k : Fin 16) :
    warr m c (ix2 (0 : Fin 1) k) = (m ((c : Thread nD τ).loc main_arg2) : S1x16x1x1.Idx → EReal) (ix4 (0 : Fin 1) k (0 : Fin 1) (0 : Fin 1)) :=
  (congrFun (pre_v33 m c) (ix2 (0 : Fin 1) k)).trans
    ((shapeCast_apply _ shapeCasts_S16_S1x16 (ix2 (0 : Fin 1) k) (ix1 k)
      (by rewrite [Shape.rowMajor_val_one, Shape.rowMajor_val_two]
          show k.val = 0 * 16 + k.val; omega)).trans
     (shapeCast_apply _ shapeCasts_S1x16x1x1_S16 (ix1 k) (ix4 (0 : Fin 1) k (0 : Fin 1) (0 : Fin 1))
      (by rewrite [Shape.rowMajor_val_four, Shape.rowMajor_val_one]
          show ((0 * 16 + k.val) * 1 + 0) * 1 + 0 = k.val; omega)))

/-- The bias at (0, 0) is the bias argument's one entry. -/
theorem b_at :
    barr m c (ix2 (0 : Fin 1) (0 : Fin 1)) = (m ((c : Thread nD τ).loc main_arg3) : S1.Idx → EReal) (ix1 (0 : Fin 1)) :=
  (congrFun (pre_v34 m c) (ix2 (0 : Fin 1) (0 : Fin 1))).trans
    (shapeCast_apply _ shapeCasts_S1_S1x1 (ix2 (0 : Fin 1) (0 : Fin 1)) (ix1 (0 : Fin 1))
      (by rewrite [Shape.rowMajor_val_one, Shape.rowMajor_val_two]
          show 0 = 0 * 1 + 0; omega))

/-- A [2000000] row viewed as a [1, 2000000] array, at column e, is the row at e. -/
theorem row_at (r : (⟨S2000000, .f32⟩ : BufTy).Contents (Elt Ideal)) (e : Fin 2000000) :
    shapeCast S1x2000000 r shapeCasts_S2000000_S1x2000000 (ix2 (0 : Fin 1) e) = r (ix1 e) :=
  shapeCast_apply r shapeCasts_S2000000_S1x2000000 (ix2 (0 : Fin 1) e) (ix1 e)
    (by rewrite [Shape.rowMajor_val_one, Shape.rowMajor_val_two]
        show e.val = 0 * 2000000 + e.val; omega)

/-- A [1, 2000000] array viewed as a [2000000] row, at e, is the array at column e. -/
theorem col_at (a : S1x2000000.Idx → EReal) (e : Fin 2000000) :
    shapeCast S2000000 a shapeCasts_S1x2000000_S2000000 (ix1 e) = a (ix2 (0 : Fin 1) e) :=
  shapeCast_apply a shapeCasts_S1x2000000_S2000000 (ix1 e) (ix2 (0 : Fin 1) e)
    (by rewrite [Shape.rowMajor_val_one, Shape.rowMajor_val_two]
        show 0 * 2000000 + e.val = e.val; omega)

theorem cs_at (e : Fin 2000000) : csarr m c (ix2 (0 : Fin 1) e)
    = Cert.Spec.gatherRow (Cert.Spec.concRow (m ((c : Thread nD τ).loc main_arg0))) (Cert.Spec.srcRow (m ((c : Thread nD τ).loc main_arg4))) (ix1 e) :=
  (congrFun (pre_v35 m c) (ix2 (0 : Fin 1) e)).trans (row_at _ e)
theorem ss_at (e : Fin 2000000) : ssarr m c (ix2 (0 : Fin 1) e)
    = Cert.Spec.gatherRow (Cert.Spec.sizeRow (m ((c : Thread nD τ).loc main_arg0))) (Cert.Spec.srcRow (m ((c : Thread nD τ).loc main_arg4))) (ix1 e) :=
  (congrFun (pre_v36 m c) (ix2 (0 : Fin 1) e)).trans (row_at _ e)
theorem sd_at (e : Fin 2000000) : sdarr m c (ix2 (0 : Fin 1) e)
    = Cert.Spec.gatherRow (Cert.Spec.sizeRow (m ((c : Thread nD τ).loc main_arg0))) (Cert.Spec.dstRow (m ((c : Thread nD τ).loc main_arg4))) (ix1 e) :=
  (congrFun (pre_v37 m c) (ix2 (0 : Fin 1) e)).trans (row_at _ e)

/-! ## The per-edge values agree -/

/-- Edge e's flow in the kernel is its value in the reference. -/
theorem flow_eq (e : Fin 2000000) :
    Cert.Spec.flowAt (xarr m c) (warr m c) (barr m c) e
      = Cert.ReferenceIdeal.Read.val_main_v11 (F := Ideal) (m ((c : Thread nD τ).loc main_arg1)) (m ((c : Thread nD τ).loc main_arg2)) (m ((c : Thread nD τ).loc main_arg3)) (ix1 e) := by
  rw [Cert.ReferenceIdeal.RefValue.val_apply]
  unfold Cert.Spec.flowAt
  exact congrArg₂ (· + ·)
    (Finset.sum_congr rfl fun k _ => (congrArg₂ (· * ·) (w_at m c k) (x_at m c e k)).trans (mul_comm _ _))
    (b_at m c)

/-- The second array the region wrote, as a row, is the reference's row of values written to the sources. -/
theorem vsrc_eq :
    shapeCast S2000000 ((dats m 0 c).arrAt 7 cfg0.N : S1x2000000.Idx → EReal) shapeCasts_S1x2000000_S2000000
      = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨e, rfl⟩ : ∃ e : Fin 2000000, i = ix1 e := ⟨i 0, eq_ix1 i⟩
  rw [Cert.ReferenceIdeal.RefValue.vsrc_apply, col_at, final7, ref_g23, ref_g31, ← flow_eq m c e, ← cs_at m c e, ← ss_at m c e]

/-- The third, as a row, is the reference's row of values written to the targets. -/
theorem vdst_eq :
    shapeCast S2000000 ((dats m 0 c).arrAt 8 cfg0.N : S1x2000000.Idx → EReal) shapeCasts_S1x2000000_S2000000
      = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨e, rfl⟩ : ∃ e : Fin 2000000, i = ix1 e := ⟨i 0, eq_ix1 i⟩
  rw [Cert.ReferenceIdeal.RefValue.vdst_apply, col_at, final8, ref_g39, ref_g47, ← flow_eq m c e, ← cs_at m c e, ← sd_at m c e]

/-- The first array the region wrote, as a [2000000, 1, 1] column, is the reference's column of edge values. -/
theorem flow_col_eq :
    shapeCast S2000000x1x1 ((dats m 0 c).arrAt 6 cfg0.N : S1x2000000.Idx → EReal) shapeCasts_S1x2000000_S2000000x1x1
      = Cert.ReferenceIdeal.Read.val_main_v10 (F := Ideal) (m ((c : Thread nD τ).loc main_arg1)) (m ((c : Thread nD τ).loc main_arg2)) (m ((c : Thread nD τ).loc main_arg3)) := by
  funext i
  obtain ⟨e, p, q, rfl⟩ : ∃ (e : Fin 2000000) (p q : Fin 1), i = ix3 e p q := ⟨i 0, i 1, i 2, eq_ix3 i⟩
  obtain rfl : p = 0 := Subsingleton.elim _ _
  obtain rfl : q = 0 := Subsingleton.elim _ _
  rw [Cert.ReferenceIdeal.RefValue.out1_apply, ← flow_eq m c e, final6]
  exact shapeCast_apply _ shapeCasts_S1x2000000_S2000000x1x1 (ix3 e (0 : Fin 1) (0 : Fin 1)) (ix2 (0 : Fin 1) e)
    (by rewrite [Shape.rowMajor_val_three, Shape.rowMajor_val_two]
        show 0 * 2000000 + e.val = (e.val * 1 + 0) * 1 + 0; omega)

end Cert.Proof.Bridge

end
-- ==== Proof.lean ====
/-
  The certificate: the kernel program and its idealization run, fault nowhere and leave their arguments unchanged;
  the idealization rewrote nothing; and at the ideal instance the idealized kernel program and the idealized reference,
  run from memories that agree on the arguments, end with the same two results.

  The kernel programs are host operations, one pipelined region, host operations. The region's three output arrays
  hold, column by column, an edge's flow (the weights' product with its features plus the bias) and the flow times the
  source's concentration over the source's, resp. the target's, size; the reference computes the same three rows on
  the host, with the factors of each product in the other order. Everything after those rows is one function of them
  in both programs (the last write to a node wins), so it is never opened.
-/
import proofs.«132385_j48275432407577_1_alg».proof.Defs
import proofs.«132385_j48275432407577_1_alg».proof.Proof.Gen.Kernel
import proofs.«132385_j48275432407577_1_alg».proof.Proof.Gen.KernelIdeal
import proofs.«132385_j48275432407577_1_alg».proof.Proof.Gen.ReferenceIdeal
import proofs.«132385_j48275432407577_1_alg».proof.Proof.Gen.Pre_finite_inputs
import proofs.«132385_j48275432407577_1_alg».proof.Proof.BFrameB
import proofs.«132385_j48275432407577_1_alg».proof.Proof.KFrameB
import proofs.«132385_j48275432407577_1_alg».proof.Proof.KHost
import proofs.«132385_j48275432407577_1_alg».proof.Proof.KArrays
import proofs.«132385_j48275432407577_1_alg».proof.Proof.RefValue
import proofs.«132385_j48275432407577_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two idealized programs end with equal results. -/
theorem algebraic : Cert.algebraic_KernelIdeal_ReferenceIdeal := by
  intro m ρ m' ρ' _ hagree
  refine ⟨_, _, ?_, Cert.ReferenceIdeal.Value.run (F := Ideal) m' ρ'⟩
  refine (θ_run Cert.KernelIdeal.defs _ _).mono (fun r h c => ?_) (Cert.KernelIdeal.Hand.run_main (F := Ideal) m ρ)
  obtain ⟨h0, h1, h2, h3, h4⟩ := hagree c
  refine ⟨?_, ?_,
    ((h c).2 Cert.KernelIdeal.main_arg0 (Pipeline.mem_restRefs_of Cert.KernelIdeal.main_arg0 (by decide) (by decide))).trans (Cert.KernelIdeal.Hand.post_main_arg0 m c),
    ((h c).2 Cert.KernelIdeal.main_arg1 (Pipeline.mem_restRefs_of Cert.KernelIdeal.main_arg1 (by decide) (by decide))).trans (Cert.KernelIdeal.Hand.post_main_arg1 m c),
    ((h c).2 Cert.KernelIdeal.main_arg2 (Pipeline.mem_restRefs_of Cert.KernelIdeal.main_arg2 (by decide) (by decide))).trans (Cert.KernelIdeal.Hand.post_main_arg2 m c),
    ((h c).2 Cert.KernelIdeal.main_arg3 (Pipeline.mem_restRefs_of Cert.KernelIdeal.main_arg3 (by decide) (by decide))).trans (Cert.KernelIdeal.Hand.post_main_arg3 m c),
    ((h c).2 Cert.KernelIdeal.main_arg4 (Pipeline.mem_restRefs_of Cert.KernelIdeal.main_arg4 (by decide) (by decide))).trans (Cert.KernelIdeal.Hand.post_main_arg4 m c)⟩
  · -- the per-node result: the shared last-write function of rows that agree
    refine ((h c).2 Cert.KernelIdeal.main_v83 (Pipeline.mem_restRefs_of Cert.KernelIdeal.main_v83 (by decide) (by decide))).trans ?_
    rw [Cert.KernelIdeal.Hand.tail_v83]
    show _ = Cert.ReferenceIdeal.Value.res_out0 (F := Ideal) m' c
    rw [Cert.ReferenceIdeal.RefValue.out0_eq, h0, h1, h2, h3, h4]
    exact Cert.KernelIdeal.Hand.lastWrite_congr
      ((Cert.KernelIdeal.Hand.pre_v7 m c).trans (Cert.Proof.Bridge.ref_src _).symm) ((Cert.KernelIdeal.Hand.pre_v9 m c).trans (Cert.Proof.Bridge.ref_dst _).symm)
      (Cert.Proof.Bridge.vsrc_eq m c) (Cert.Proof.Bridge.vdst_eq m c)
      ((Cert.KernelIdeal.Hand.pre_v1 m c).trans (Cert.Proof.Bridge.ref_conc _).symm) ((Cert.KernelIdeal.Hand.pre_v3 m c).trans (Cert.Proof.Bridge.ref_people _).symm)
      ((Cert.KernelIdeal.Hand.pre_v5 m c).trans (Cert.Proof.Bridge.ref_size _).symm)
  · -- the per-edge result: the flow column
    refine ((h c).2 Cert.KernelIdeal.main_v39 (Pipeline.mem_restRefs_of Cert.KernelIdeal.main_v39 (by decide) (by decide))).trans ?_
    rw [Cert.KernelIdeal.Hand.tail_v39, h1, h2, h3]
    exact Cert.Proof.Bridge.flow_col_eq m c

/-- The certificate. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
